-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x128, .f32⟩
  | .hbm, ⟨3, _⟩ => ⟨S1x1, .f32⟩
  | .hbm, ⟨4, _⟩ => ⟨S_, .f32⟩
  | .hbm, ⟨5, _⟩ => ⟨S1x128, .f32⟩
  | .hbm, ⟨6, _⟩ => ⟨S1x1, .f32⟩
  | .hbm, ⟨7, _⟩ => ⟨S_, .f32⟩
  | .hbm, ⟨8, _⟩ => ⟨S1x128, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x128_S1x128_0_0 : ∀ a, (![0, 0] : Fin 2 → Nat) a + S1x128.size a ≤ S1x128.size a
  h_S1x128 : 0 < S1x128.numel
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  reduces_S512x1_S1 : S512x1.Reduces [0] S1
  shapeCasts_S1_S1x1 : S1.ShapeCasts S1x1
  shapeCasts_S1x128_S1x128 : S1x128.ShapeCasts S1x128
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .f32 = 32 ∨ (Rect.block (s := S8192x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x512.size a
  hwx2_0 : ∀ i : grid2.Coords, EltTy.bits .f32 = 32 ∨ (Rect.block (s := S8192x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S8192x512.size a
  hwx2_1 : ∀ i : grid2.Coords, EltTy.bits .f32 = 32 ∨ (Rect.block (s := S8192x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S512x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S1x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S512x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x512, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S1x8192, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S512x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_v61 : Ref sig .tc := ⟨.hbm, 81, rfl⟩
abbrev main_cst_17 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_18 : Ref sig .tc := ⟨.hbm, 86, rfl⟩
abbrev main_v65 : Ref sig .tc := ⟨.hbm, 87, rfl⟩
abbrev main_cst_19 : Ref sig .tc := ⟨.hbm, 88, rfl⟩
abbrev main_v66 : Ref sig .tc := ⟨.hbm, 89, rfl⟩
abbrev main_cst_20 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Body0.lean ====
/-
  The kernel body of this call, run once per control case. The body resets the 1 × 128 accumulator block to zero
  when both grid coordinates are zero, then loads the two 512 × 512 tiles and the accumulator, and stores the accumulator
  plus the tiles' kernel sum. At the first grid point the accumulator read back is the zero block just stored; at every
  other point it is what the previous point left.
-/
import proofs.«179489_j87875030876301_1_alg».proof.Proof.Gen.Kernel.Launch
import proofs.«179489_j87875030876301_1_alg».proof.Proof.Gen.Kernel.Skeleton
import proofs.«179489_j87875030876301_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset test: both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- At the first point: whatever the accumulator held, the body leaves the two tiles as they were and the accumulator
    written by its two stores (the pieces the run finds, last first). -/
noncomputable def kernelRun0_A (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond0 i)
    (x0 x1 : Vec F S512x512 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At every other point: the accumulator holding `xo`, the body leaves the two tiles as they were and the accumulator
    written by its one store. -/
noncomputable def kernelRun0_B (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond0 i)
    (x0 x1 : Vec F S512x512 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Dat0.lean ====
/-
  This call's proof data, at the contents `V` its arrays hold when the call is entered. Each input window's
  staging buffer holds the window's tile at every grid point, fetched there or not; the output window's buffer holds,
  after point `n`, what the body's stores leave there: at the first point the reset case's result, at a later point the
  accumulating case's result over what the point before left (the buffer is written back after the last point only).
  The two input windows may be windows of ONE array: the share each holds of it is a parameter.
-/
import proofs.«179489_j87875030876301_1_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s tile at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its tile at every point, fetched there or not (unfetched, the tile's index
    has not moved), for any proof data over `V` whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0 : View sig .tc .vmem S1x128 .f32 := (Memref.whole cc0_stg2_0 : Memref sig .tc .vmem S1x128 .f32).view
/-- Each window's current staging memref at point `t`, as the pipeline passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

/-- The reset case's stores cover the accumulator block. -/
theorem cover0_A (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond0 i) (x0 x1 : Vec F S512x512 .f32) (y : S1x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x128.size (by sl_kernel_rfl) y

/-- What the reset case leaves in the accumulator block. -/
def out0_A (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond0 i) (x0 x1 : Vec F S512x512 .f32) : Vec F S1x128 .f32 :=
  VO0.read (Elt F) (VO0.writes (Elt F) VO0.junk (kernelRun0_A c i arg2 harg2 arg3 harg3 arg4 harg4 hc0 x0 x1).1)

/-- The accumulating case's store covers the accumulator block. -/
theorem cover0_B (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond0 i) (x0 x1 : Vec F S512x512 .f32) (xo : Vec F S1x128 .f32) (y : S1x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x128.size (by sl_kernel_rfl) y

/-- What the accumulating case leaves in the accumulator block. -/
def out0_B (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond0 i) (x0 x1 : Vec F S512x512 .f32) (xo : Vec F S1x128 .f32) : Vec F S1x128 .f32 :=
  VO0.read (Elt F) (VO0.writes (Elt F) VO0.junk (kernelRun0_B c i arg2 harg2 arg3 harg3 arg4 harg4 hc0 x0 x1 xo).1)

/-- The accumulation: what the accumulator block holds after the body at position `n`. -/
def outsAt0 (c : Dev nD) : (n : ℕ) → n < cfg0.N → Vec F S1x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0 ⟨0, hn⟩).mpr rfl) (iblk0 V c 0 ⟨0, hn⟩) (iblk0 V c 1 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => absurd ((hcond0 ⟨n + 1, hn⟩).mp h) (Nat.succ_ne_zero n)) (iblk0 V c 0 ⟨n + 1, hn⟩) (iblk0 V c 1 ⟨n + 1, hn⟩) (outsAt0 c n (Nat.lt_of_succ_lt hn))

/-- At the first point: the reset case's contents. -/
theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact absurd h0 (Nat.succ_ne_zero n)

/-- At a later point: the accumulating case's contents, over what the point before left. -/
theorem outsAt0_B (c : Dev nD) (t : Fin cfg0.N) (h0 : ¬t.val = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t)
      (outsAt0 V c (t.val - 1) (Nat.lt_of_le_of_lt (Nat.sub_le _ _) t.isLt)) := by
  obtain ⟨n, hn⟩ := t
  cases n with
  | zero => exact absurd rfl h0
  | succ n => exact rfl

/-- The proof data of the call on core `c`: the arrays as the call finds them; after the body at point `t` each input's
    buffer at its tile and the accumulator's at `outsAt0`; the invariant the scoped rest and the generator register,
    untouched; nothing owed; the input arrays held at the shares `q0`, `q1`. -/
def dat0 (q0 q1 : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => q0
    | ⟨1, _⟩ => q1
    | ⟨2, _⟩ => fullShare
  owed _ := 0

variable (q0 q1 : PosShare TreeShare)

theorem A_eq0 (c : Dev nD) (w : Fin cfg0.W) : (dat0 V q0 q1 c).A w = V c (Pipeline.arrRef spec0 w) := by
  dsimp only [dat0]

theorem after0_0 (c : Dev nD) (t : Fin cfg0.N) : (dat0 V q0 q1 c).after 0 t = iblk0 V c 0 t := by dsimp only [dat0]
theorem after0_1 (c : Dev nD) (t : Fin cfg0.N) : (dat0 V q0 q1 c).after 1 t = iblk0 V c 1 t := by dsimp only [dat0]
theorem after0_2 (c : Dev nD) (t : Fin cfg0.N) : (dat0 V q0 q1 c).after 2 t = outsAt0 V c t.val t.isLt := by dsimp only [dat0]

theorem before0_0 (c : Dev nD) (t : Fin cfg0.N) (d) : (dat0 V q0 q1 c).before 0 t d = iblk0 V c 0 t :=
  before0_0_of V (dat0 V q0 q1 c) (A_eq0 V q0 q1 c 0) (after0_0 V q0 q1 c) t d
theorem before0_1 (c : Dev nD) (t : Fin cfg0.N) (d) : (dat0 V q0 q1 c).before 1 t d = iblk0 V c 1 t :=
  before0_1_of V (dat0 V q0 q1 c) (A_eq0 V q0 q1 c 1) (after0_1 V q0 q1 c) t d

/-- At a later point the accumulator's buffer holds what the body left at the point before: it is written back after
    the last point only. -/
theorem before0_2_B (c : Dev nD) (t : Fin cfg0.N) (h0 : ¬t.val = 0) (d) :
    (dat0 V q0 q1 c).before 2 t d = outsAt0 V c (t.val - 1) (Nat.lt_of_le_of_lt (Nat.sub_le _ _) t.isLt) := by
  have hN : t.val < 256 := lt_of_lt_of_eq t.isLt (show cfg0.N = 256 from N_0)
  rw [Dat.before_out_kept _ 2 rfl t h0 (Bool.eq_false_iff.mpr fun h => by have := (flush0_2 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V q0 q1 c).Φ t.castSucc ∗ (dat0 V q0 q1 c).owesAt () t.castSucc
    ∗ (∃ d, owns (c : Thread nD τ) (ms0_0 t) fullShare ((dat0 V q0 q1 c).before 0 t d))
    ∗ (∃ d, owns (c : Thread nD τ) (ms0_1 t) fullShare ((dat0 V q0 q1 c).before 1 t d))
    ∗ (∃ d, owns (c : Thread nD τ) (ms0_2 t) fullShare ((dat0 V q0 q1 c).before 2 t d)))

/-- and what it returns. -/
def bodyPost0 (c : Dev nD) (t : Fin cfg0.N) : sProp 𝕄 :=
  iprop((dat0 V q0 q1 c).Φ t.succ ∗ (dat0 V q0 q1 c).owesAt () t.succ
    ∗ owns (c : Thread nD τ) (ms0_0 t) fullShare ((dat0 V q0 q1 c).after 0 t)
    ∗ owns (c : Thread nD τ) (ms0_1 t) fullShare ((dat0 V q0 q1 c).after 1 t)
    ∗ owns (c : Thread nD τ) (ms0_2 t) fullShare ((dat0 V q0 q1 c).after 2 t))

set_option maxHeartbeats 800000 in
/-- The body at any point: the inputs' buffers hold their tiles; the first point runs the reset case, a later point the
    accumulating case over what the point before left; the invariant and the core's debts pass through unread. -/
theorem sound_body0 (c : Dev nD) (t : Fin cfg0.N) :
    bodyPre0 V q0 q1 c t ⊢ wp frame (wpE (defs₀ (F := F)) Variants.none c none) Set.univ (bodyAt0 t) (fun _ => bodyPost0 V q0 q1 c t) := by
  unfold bodyPre0 bodyPost0 bodyAt0
  simp only [before0_0, before0_1]
  rw [show (dat0 V q0 q1 c).Φ t.succ = (dat0 V q0 q1 c).Φ t.castSucc from rfl,
    show (dat0 V q0 q1 c).owesAt () t.succ = (dat0 V q0 q1 c).owesAt () t.castSucc from rfl,
    after0_0, after0_1, after0_2]
  by_cases h0 : t.val = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V q0 q1 c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

/-- The body obligation, at every point. -/
theorem body_obligation0 (c : Dev nD) : BodyObligation (dat0 (F := F) V q0 q1 c) (defs₀ (F := F)) Variants.none () Set.univ := fun t => by
  rw [bigSep_W0, bigSep_W0]
  exact sound_body0 V q0 q1 c t

end Region

end Cert.Kernel.Hand

end
-- ==== Proof.K.Arr0.lean ====
/-
  This call's arrays at its two ends. Its two input windows read ONE array: at entry the array's full share is dealt
  to them as its left and right halves, and at exit the halves, both still at the entry contents, are rejoined. The
  output window's array is held whole: at exit it holds the accumulator block written back after the last point.
-/
import proofs.«179489_j87875030876301_1_alg».proof.Proof.K.Dat0
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The windows' arrays, one by one: the shared input array at the two halves, the output array whole. -/
theorem arrays0_eq (c : Dev nD) (Fa : (w : Fin cfg0.W) → Buf (Elt F) ((cfg0.win w).arr.view.loc (c : Thread nD τ))) :
    ((dat0 V fullShare.left fullShare.right c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2)) := by
  unfold Dat.arrays
  rw [bigSep_W0, (arr_whole0 0).set_eq_univ, (arr_whole0 2).set_eq_univ]
  rfl

/-- The distinct buffers behind the windows' arrays. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)) := by
  unfold Pipeline.arrBufs
  rw [show Finset.univ.image (Pipeline.arrRef spec0) = {main_arg0, main_v0} from by decide,
    bigSep_insert (by decide), bigSep_singleton]
  rfl

/-- ENTRY: the core's unscoped buffers at `V` are the call's arrays at their entry contents and the rest. -/
theorem entry0 (c : Dev nD) :
    (unscopedBufs (Ix := Unit) (Name := ℕ) (U := UR sig nD τ) (Lvl := ℕ) c (V c) : sProp 𝕄)
      ⊢ iprop((dat0 V fullShare.left fullShare.right c).arrays ((dat0 V fullShare.left fullShare.right c).arrAt · 0)
          ∗ Pipeline.unscopedRest (Ix := Unit) (Name := ℕ) (U := UR sig nD τ) (Lvl := ℕ) spec0 c (V c)) := by
  rw [show (unscopedBufs (Ix := Unit) (Name := ℕ) (U := UR sig nD τ) (Lvl := ℕ) c (V c) : sProp 𝕄)
      = iprop(Pipeline.arrBufs spec0 c (V c) ∗ Pipeline.unscopedRest spec0 c (V c))
    from Pipeline.unscopedBufs_split₀ cfgs (0 : Fin 3) winFacts₀0.arr_unscoped c (V c), arrBufs0_eq, arrays0_eq]
  iintro ⟨⟨Ha, Hv⟩, Hrest⟩
  ihave Ha := (pointsTo_share (PosShare.mem_left_op_right fullShare)).1 $$ Ha
  icases Ha with ⟨Ha1, Ha2⟩
  isplitr [Hrest]
  · isplitl [Ha1]; · iexact Ha1
    isplitl [Ha2]; · iexact Ha2
    iexact Hv
  iexact Hrest

/-- EXIT: the call's arrays at their final contents and the rest at `V` are the core's unscoped buffers at any
    contents `V'` that have the output array at what the call leaves there and agree with `V` elsewhere. -/
theorem exit0 (c : Dev nD) (V' : (b : Ref sig .tc) → Buf (Elt F) ((c : Thread nD τ).loc b))
    (hout : V' main_v0 = (dat0 V fullShare.left fullShare.right c).arrAt 2 cfg0.N)
    (hrest : ∀ b : Ref sig .tc, b ≠ main_v0 → V' b = V c b) :
    iprop((dat0 V fullShare.left fullShare.right c).arrays ((dat0 V fullShare.left fullShare.right c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [show (unscopedBufs (Ix := Unit) (Name := ℕ) (U := UR sig nD τ) (Lvl := ℕ) c V' : sProp 𝕄)
      = iprop(Pipeline.arrBufs spec0 c V' ∗ Pipeline.unscopedRest spec0 c V')
    from Pipeline.unscopedBufs_split₀ cfgs (0 : Fin 3) winFacts₀0.arr_unscoped c V', arrBufs0_eq, arrays0_eq,
    (dat0 V fullShare.left fullShare.right c).arrAt_in 0 rfl, (dat0 V fullShare.left fullShare.right c).arrAt_in 1 rfl,
    hout, hrest main_arg0 (by decide)]
  have hR : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by
      rw [hrest b (fun e => (Finset.mem_sdiff.mp hb).2 (Finset.mem_image.mpr ⟨2, Finset.mem_univ _, e.symm⟩))]
  rw [hR]
  iintro ⟨⟨Ha1, Ha2, Hv⟩, Hrest⟩
  isplitr [Hrest]
  · isplitr [Hv]
    · iapply (pointsTo_share (PosShare.mem_left_op_right fullShare)).2
      isplitl [Ha1]; · iexact Ha1
      iexact Ha2
    iexact Hv
  iexact Hrest

end Region

end Cert.Kernel.Hand

end
-- ==== Proof.K.Body1.lean ====
/-
  The kernel body of this call, run once per control case. The body resets the 1 × 128 accumulator block to zero
  when both grid coordinates are zero, then loads the two 512 × 512 tiles and the accumulator, and stores the accumulator
  plus the tiles' kernel sum. At the first grid point the accumulator read back is the zero block just stored; at every
  other point it is what the previous point left.
-/
import proofs.«179489_j87875030876301_1_alg».proof.Proof.Gen.Kernel.Launch
import proofs.«179489_j87875030876301_1_alg».proof.Proof.Gen.Kernel.Skeleton
import proofs.«179489_j87875030876301_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset test: both grid coordinates are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- At the first point: whatever the accumulator held, the body leaves the two tiles as they were and the accumulator
    written by its two stores (the pieces the run finds, last first). -/
noncomputable def kernelRun1_A (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond1 i)
    (x0 x1 : Vec F S512x512 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At every other point: the accumulator holding `xo`, the body leaves the two tiles as they were and the accumulator
    written by its one store. -/
noncomputable def kernelRun1_B (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond1 i)
    (x0 x1 : Vec F S512x512 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Dat1.lean ====
/-
  This call's proof data, at the contents `V` its arrays hold when the call is entered. Each input window's
  staging buffer holds the window's tile at every grid point, fetched there or not; the output window's buffer holds,
  after point `n`, what the body's stores leave there: at the first point the reset case's result, at a later point the
  accumulating case's result over what the point before left (the buffer is written back after the last point only).
  The two input windows may be windows of ONE array: the share each holds of it is a parameter.
-/
import proofs.«179489_j87875030876301_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s tile at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its tile at every point, fetched there or not (unfetched, the tile's index
    has not moved), for any proof data over `V` whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1 : View sig .tc .vmem S1x128 .f32 := (Memref.whole cc1_stg2_0 : Memref sig .tc .vmem S1x128 .f32).view
/-- Each window's current staging memref at point `t`, as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

/-- The reset case's stores cover the accumulator block. -/
theorem cover1_A (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond1 i) (x0 x1 : Vec F S512x512 .f32) (y : S1x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x128.size (by sl_kernel_rfl) y

/-- What the reset case leaves in the accumulator block. -/
def out1_A (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond1 i) (x0 x1 : Vec F S512x512 .f32) : Vec F S1x128 .f32 :=
  VO1.read (Elt F) (VO1.writes (Elt F) VO1.junk (kernelRun1_A c i arg2 harg2 arg3 harg3 arg4 harg4 hc0 x0 x1).1)

/-- The accumulating case's store covers the accumulator block. -/
theorem cover1_B (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond1 i) (x0 x1 : Vec F S512x512 .f32) (xo : Vec F S1x128 .f32) (y : S1x128.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S1x128.size (by sl_kernel_rfl) y

/-- What the accumulating case leaves in the accumulator block. -/
def out1_B (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond1 i) (x0 x1 : Vec F S512x512 .f32) (xo : Vec F S1x128 .f32) : Vec F S1x128 .f32 :=
  VO1.read (Elt F) (VO1.writes (Elt F) VO1.junk (kernelRun1_B c i arg2 harg2 arg3 harg3 arg4 harg4 hc0 x0 x1 xo).1)

/-- The accumulation: what the accumulator block holds after the body at position `n`. -/
def outsAt1 (c : Dev nD) : (n : ℕ) → n < cfg1.N → Vec F S1x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1 ⟨0, hn⟩).mpr rfl) (iblk1 V c 0 ⟨0, hn⟩) (iblk1 V c 1 ⟨0, hn⟩)
  | n + 1, hn => out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
      (fun h => absurd ((hcond1 ⟨n + 1, hn⟩).mp h) (Nat.succ_ne_zero n)) (iblk1 V c 0 ⟨n + 1, hn⟩) (iblk1 V c 1 ⟨n + 1, hn⟩) (outsAt1 c n (Nat.lt_of_succ_lt hn))

/-- At the first point: the reset case's contents. -/
theorem outsAt1_A (c : Dev nD) (t : Fin cfg1.N) (h0 : t.val = 0) :
    outsAt1 V c t.val t.isLt = out1_A c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact absurd h0 (Nat.succ_ne_zero n)

/-- At a later point: the accumulating case's contents, over what the point before left. -/
theorem outsAt1_B (c : Dev nD) (t : Fin cfg1.N) (h0 : ¬t.val = 0) :
    outsAt1 V c t.val t.isLt = out1_B c (grid1.coords t) (ms1_0 t) (hs1_0 t) (ms1_1 t) (hs1_1 t) (ms1_2 t) (hs1_2 t) (fun h => h0 ((hcond1 t).mp h)) (iblk1 V c 0 t) (iblk1 V c 1 t)
      (outsAt1 V c (t.val - 1) (Nat.lt_of_le_of_lt (Nat.sub_le _ _) t.isLt)) := by
  obtain ⟨n, hn⟩ := t
  cases n with
  | zero => exact absurd rfl h0
  | succ n => exact rfl

/-- The proof data of the call on core `c`: the arrays as the call finds them; after the body at point `t` each input's
    buffer at its tile and the accumulator's at `outsAt1`; the invariant the scoped rest and the generator register,
    untouched; nothing owed; the input arrays held at the shares `q0`, `q1`. -/
def dat1 (q0 q1 : PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => q0
    | ⟨1, _⟩ => q1
    | ⟨2, _⟩ => fullShare
  owed _ := 0

variable (q0 q1 : PosShare TreeShare)

theorem A_eq1 (c : Dev nD) (w : Fin cfg1.W) : (dat1 V q0 q1 c).A w = V c (Pipeline.arrRef spec1 w) := by
  dsimp only [dat1]

theorem after1_0 (c : Dev nD) (t : Fin cfg1.N) : (dat1 V q0 q1 c).after 0 t = iblk1 V c 0 t := by dsimp only [dat1]
theorem after1_1 (c : Dev nD) (t : Fin cfg1.N) : (dat1 V q0 q1 c).after 1 t = iblk1 V c 1 t := by dsimp only [dat1]
theorem after1_2 (c : Dev nD) (t : Fin cfg1.N) : (dat1 V q0 q1 c).after 2 t = outsAt1 V c t.val t.isLt := by dsimp only [dat1]

theorem before1_0 (c : Dev nD) (t : Fin cfg1.N) (d) : (dat1 V q0 q1 c).before 0 t d = iblk1 V c 0 t :=
  before1_0_of V (dat1 V q0 q1 c) (A_eq1 V q0 q1 c 0) (after1_0 V q0 q1 c) t d
theorem before1_1 (c : Dev nD) (t : Fin cfg1.N) (d) : (dat1 V q0 q1 c).before 1 t d = iblk1 V c 1 t :=
  before1_1_of V (dat1 V q0 q1 c) (A_eq1 V q0 q1 c 1) (after1_1 V q0 q1 c) t d

/-- At a later point the accumulator's buffer holds what the body left at the point before: it is written back after
    the last point only. -/
theorem before1_2_B (c : Dev nD) (t : Fin cfg1.N) (h0 : ¬t.val = 0) (d) :
    (dat1 V q0 q1 c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t h0 (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V q0 q1 c).Φ t.castSucc ∗ (dat1 V q0 q1 c).owesAt () t.castSucc
    ∗ (∃ d, owns (c : Thread nD τ) (ms1_0 t) fullShare ((dat1 V q0 q1 c).before 0 t d))
    ∗ (∃ d, owns (c : Thread nD τ) (ms1_1 t) fullShare ((dat1 V q0 q1 c).before 1 t d))
    ∗ (∃ d, owns (c : Thread nD τ) (ms1_2 t) fullShare ((dat1 V q0 q1 c).before 2 t d)))

/-- and what it returns. -/
def bodyPost1 (c : Dev nD) (t : Fin cfg1.N) : sProp 𝕄 :=
  iprop((dat1 V q0 q1 c).Φ t.succ ∗ (dat1 V q0 q1 c).owesAt () t.succ
    ∗ owns (c : Thread nD τ) (ms1_0 t) fullShare ((dat1 V q0 q1 c).after 0 t)
    ∗ owns (c : Thread nD τ) (ms1_1 t) fullShare ((dat1 V q0 q1 c).after 1 t)
    ∗ owns (c : Thread nD τ) (ms1_2 t) fullShare ((dat1 V q0 q1 c).after 2 t))

set_option maxHeartbeats 800000 in
/-- The body at any point: the inputs' buffers hold their tiles; the first point runs the reset case, a later point the
    accumulating case over what the point before left; the invariant and the core's debts pass through unread. -/
theorem sound_body1 (c : Dev nD) (t : Fin cfg1.N) :
    bodyPre1 V q0 q1 c t ⊢ wp frame (wpE (defs₀ (F := F)) Variants.none c none) Set.univ (bodyAt1 t) (fun _ => bodyPost1 V q0 q1 c t) := by
  unfold bodyPre1 bodyPost1 bodyAt1
  simp only [before1_0, before1_1]
  rw [show (dat1 V q0 q1 c).Φ t.succ = (dat1 V q0 q1 c).Φ t.castSucc from rfl,
    show (dat1 V q0 q1 c).owesAt () t.succ = (dat1 V q0 q1 c).owesAt () t.castSucc from rfl,
    after1_0, after1_1, after1_2]
  by_cases h0 : t.val = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V q0 q1 c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The body obligation, at every point. -/
theorem body_obligation1 (c : Dev nD) : BodyObligation (dat1 (F := F) V q0 q1 c) (defs₀ (F := F)) Variants.none () Set.univ := fun t => by
  rw [bigSep_W1, bigSep_W1]
  exact sound_body1 V q0 q1 c t

end Region

end Cert.Kernel.Hand

end
-- ==== Proof.K.Arr1.lean ====
/-
  This call's arrays at its two ends. Its two input windows read ONE array: at entry the array's full share is dealt
  to them as its left and right halves, and at exit the halves, both still at the entry contents, are rejoined. The
  output window's array is held whole: at exit it holds the accumulator block written back after the last point.
-/
import proofs.«179489_j87875030876301_1_alg».proof.Proof.K.Dat1
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The windows' arrays, one by one: the shared input array at the two halves, the output array whole. -/
theorem arrays1_eq (c : Dev nD) (Fa : (w : Fin cfg1.W) → Buf (Elt F) ((cfg1.win w).arr.view.loc (c : Thread nD τ))) :
    ((dat1 V fullShare.left fullShare.right c).arrays Fa : sProp 𝕄)
      = iprop((((c : Thread nD τ).loc main_arg1) ↦{fullShare.left} Fa 0) ∗ (((c : Thread nD τ).loc main_arg1) ↦{fullShare.right} Fa 1)
          ∗ (((c : Thread nD τ).loc main_v3) ↦{fullShare} Fa 2)) := by
  unfold Dat.arrays
  rw [bigSep_W1, (arr_whole1 0).set_eq_univ, (arr_whole1 2).set_eq_univ]
  rfl

/-- The distinct buffers behind the windows' arrays. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v3) ↦{fullShare} V' main_v3)) := by
  unfold Pipeline.arrBufs
  rw [show Finset.univ.image (Pipeline.arrRef spec1) = {main_arg1, main_v3} from by decide,
    bigSep_insert (by decide), bigSep_singleton]
  rfl

/-- ENTRY: the core's unscoped buffers at `V` are the call's arrays at their entry contents and the rest. -/
theorem entry1 (c : Dev nD) :
    (unscopedBufs (Ix := Unit) (Name := ℕ) (U := UR sig nD τ) (Lvl := ℕ) c (V c) : sProp 𝕄)
      ⊢ iprop((dat1 V fullShare.left fullShare.right c).arrays ((dat1 V fullShare.left fullShare.right c).arrAt · 0)
          ∗ Pipeline.unscopedRest (Ix := Unit) (Name := ℕ) (U := UR sig nD τ) (Lvl := ℕ) spec1 c (V c)) := by
  rw [show (unscopedBufs (Ix := Unit) (Name := ℕ) (U := UR sig nD τ) (Lvl := ℕ) c (V c) : sProp 𝕄)
      = iprop(Pipeline.arrBufs spec1 c (V c) ∗ Pipeline.unscopedRest spec1 c (V c))
    from Pipeline.unscopedBufs_split₀ cfgs (1 : Fin 3) winFacts₀1.arr_unscoped c (V c), arrBufs1_eq, arrays1_eq]
  iintro ⟨⟨Ha, Hv⟩, Hrest⟩
  ihave Ha := (pointsTo_share (PosShare.mem_left_op_right fullShare)).1 $$ Ha
  icases Ha with ⟨Ha1, Ha2⟩
  isplitr [Hrest]
  · isplitl [Ha1]; · iexact Ha1
    isplitl [Ha2]; · iexact Ha2
    iexact Hv
  iexact Hrest

/-- EXIT: the call's arrays at their final contents and the rest at `V` are the core's unscoped buffers at any
    contents `V'` that have the output array at what the call leaves there and agree with `V` elsewhere. -/
theorem exit1 (c : Dev nD) (V' : (b : Ref sig .tc) → Buf (Elt F) ((c : Thread nD τ).loc b))
    (hout : V' main_v3 = (dat1 V fullShare.left fullShare.right c).arrAt 2 cfg1.N)
    (hrest : ∀ b : Ref sig .tc, b ≠ main_v3 → V' b = V c b) :
    iprop((dat1 V fullShare.left fullShare.right c).arrays ((dat1 V fullShare.left fullShare.right c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [show (unscopedBufs (Ix := Unit) (Name := ℕ) (U := UR sig nD τ) (Lvl := ℕ) c V' : sProp 𝕄)
      = iprop(Pipeline.arrBufs spec1 c V' ∗ Pipeline.unscopedRest spec1 c V')
    from Pipeline.unscopedBufs_split₀ cfgs (1 : Fin 3) winFacts₀1.arr_unscoped c V', arrBufs1_eq, arrays1_eq,
    (dat1 V fullShare.left fullShare.right c).arrAt_in 0 rfl, (dat1 V fullShare.left fullShare.right c).arrAt_in 1 rfl,
    hout, hrest main_arg1 (by decide)]
  have hR : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by
      rw [hrest b (fun e => (Finset.mem_sdiff.mp hb).2 (Finset.mem_image.mpr ⟨2, Finset.mem_univ _, e.symm⟩))]
  rw [hR]
  iintro ⟨⟨Ha1, Ha2, Hv⟩, Hrest⟩
  isplitr [Hrest]
  · isplitr [Hv]
    · iapply (pointsTo_share (PosShare.mem_left_op_right fullShare)).2
      isplitl [Ha1]; · iexact Ha1
      iexact Ha2
    iexact Hv
  iexact Hrest

end Region

end Cert.Kernel.Hand

end
-- ==== Proof.K.Body2.lean ====
/-
  The kernel body of this call, run once per control case. The body resets the 1 × 128 accumulator block to zero
  when both grid coordinates are zero, then loads the two 512 × 512 tiles and the accumulator, and stores the accumulator
  plus the tiles' kernel sum. At the first grid point the accumulator read back is the zero block just stored; at every
  other point it is what the previous point left.
-/
import proofs.«179489_j87875030876301_1_alg».proof.Proof.Gen.Kernel.Launch
import proofs.«179489_j87875030876301_1_alg».proof.Proof.Gen.Kernel.Skeleton
import proofs.«179489_j87875030876301_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset test: both grid coordinates are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond2 : ∀ t : Fin cfg2.N, cond2 (grid2.coords t) ↔ t.val = 0 :=
  (by decide +kernel : ∀ t : Fin grid2.N, cond2 (grid2.coords t) ↔ t.val = 0)

set_option maxHeartbeats 1000000 in
/-- At the first point: whatever the accumulator held, the body leaves the two tiles as they were and the accumulator
    written by its two stores (the pieces the run finds, last first). -/
noncomputable def kernelRun2_A (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond2 i)
    (x0 x1 : Vec F S512x512 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At every other point: the accumulator holding `xo`, the body leaves the two tiles as they were and the accumulator
    written by its one store. -/
noncomputable def kernelRun2_B (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond2 i)
    (x0 x1 : Vec F S512x512 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Dat2.lean ====
/-
  This call's proof data, at the contents `V` its arrays hold when the call is entered. Each input window's
  staging buffer holds the window's tile at every grid point, fetched there or not; the output window's buffer holds,
  after point `n`, what the body's stores leave there: at the first point the reset case's result, at a later point the
  accumulating case's result over what the point before left (the buffer is written back after the last point only).
  The two input windows may be windows of ONE array: the share each holds of it is a parameter.
-/
import proofs.«179489_j87875030876301_1_alg».proof.Proof.K.Body2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s tile at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its tile at every point, fetched there or not (unfetched, the tile's index
    has not moved), for any proof data over `V` whose body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the output window, through which its contents are stated. -/
abbrev VO2 : View sig .tc .vmem S1x128 .f32 := (Memref.whole cc2_stg2_0 : Memref sig .tc .vmem S1x128 .f32).view
/-- Each window's current staging memref at point `t`, as the pipeline passes it to the body, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)

/-- The reset case's stores cover the accumulator block. -/
theorem cover2_A (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond2 i) (x0 x1 : Vec F S512x512 .f32) (y : S1x128.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S1x128.size (by sl_kernel_rfl) y

/-- What the reset case leaves in the accumulator block. -/
def out2_A (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond2 i) (x0 x1 : Vec F S512x512 .f32) : Vec F S1x128 .f32 :=
  VO2.read (Elt F) (VO2.writes (Elt F) VO2.junk (kernelRun2_A c i arg2 harg2 arg3 harg3 arg4 harg4 hc0 x0 x1).1)

/-- The accumulating case's store covers the accumulator block. -/
theorem cover2_B (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond2 i) (x0 x1 : Vec F S512x512 .f32) (xo : Vec F S1x128 .f32) (y : S1x128.Idx) :
    ∃ pc ∈ (kernelRun2_B c i arg2 harg2 arg3 harg3 arg4 harg4 hc0 x0 x1 xo).1, y ∈ pc.1.set :=
  View.cover_of_tiledL (kernelRun2_B c i arg2 harg2 arg3 harg3 arg4 harg4 hc0 x0 x1 xo).1 S1x128.size (by sl_kernel_rfl) y

/-- What the accumulating case leaves in the accumulator block. -/
def out2_B (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond2 i) (x0 x1 : Vec F S512x512 .f32) (xo : Vec F S1x128 .f32) : Vec F S1x128 .f32 :=
  VO2.read (Elt F) (VO2.writes (Elt F) VO2.junk (kernelRun2_B c i arg2 harg2 arg3 harg3 arg4 harg4 hc0 x0 x1 xo).1)

/-- The accumulation: what the accumulator block holds after the body at position `n`. -/
def outsAt2 (c : Dev nD) : (n : ℕ) → n < cfg2.N → Vec F S1x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((hcond2 ⟨0, hn⟩).mpr rfl) (iblk2 V c 0 ⟨0, hn⟩) (iblk2 V c 1 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
      (fun h => absurd ((hcond2 ⟨n + 1, hn⟩).mp h) (Nat.succ_ne_zero n)) (iblk2 V c 0 ⟨n + 1, hn⟩) (iblk2 V c 1 ⟨n + 1, hn⟩) (outsAt2 c n (Nat.lt_of_succ_lt hn))

/-- At the first point: the reset case's contents. -/
theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact absurd h0 (Nat.succ_ne_zero n)

/-- At a later point: the accumulating case's contents, over what the point before left. -/
theorem outsAt2_B (c : Dev nD) (t : Fin cfg2.N) (h0 : ¬t.val = 0) :
    outsAt2 V c t.val t.isLt = out2_B c (grid2.coords t) (ms2_0 t) (hs2_0 t) (ms2_1 t) (hs2_1 t) (ms2_2 t) (hs2_2 t) (fun h => h0 ((hcond2 t).mp h)) (iblk2 V c 0 t) (iblk2 V c 1 t)
      (outsAt2 V c (t.val - 1) (Nat.lt_of_le_of_lt (Nat.sub_le _ _) t.isLt)) := by
  obtain ⟨n, hn⟩ := t
  cases n with
  | zero => exact absurd rfl h0
  | succ n => exact rfl

/-- The proof data of the call on core `c`: the arrays as the call finds them; after the body at point `t` each input's
    buffer at its tile and the accumulator's at `outsAt2`; the invariant the scoped rest and the generator register,
    untouched; nothing owed; the input arrays held at the shares `q0`, `q1`. -/
def dat2 (q0 q1 : PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q w := match w with
    | ⟨0, _⟩ => q0
    | ⟨1, _⟩ => q1
    | ⟨2, _⟩ => fullShare
  owed _ := 0

variable (q0 q1 : PosShare TreeShare)

theorem A_eq2 (c : Dev nD) (w : Fin cfg2.W) : (dat2 V q0 q1 c).A w = V c (Pipeline.arrRef spec2 w) := by
  dsimp only [dat2]

theorem after2_0 (c : Dev nD) (t : Fin cfg2.N) : (dat2 V q0 q1 c).after 0 t = iblk2 V c 0 t := by dsimp only [dat2]
theorem after2_1 (c : Dev nD) (t : Fin cfg2.N) : (dat2 V q0 q1 c).after 1 t = iblk2 V c 1 t := by dsimp only [dat2]
theorem after2_2 (c : Dev nD) (t : Fin cfg2.N) : (dat2 V q0 q1 c).after 2 t = outsAt2 V c t.val t.isLt := by dsimp only [dat2]

theorem before2_0 (c : Dev nD) (t : Fin cfg2.N) (d) : (dat2 V q0 q1 c).before 0 t d = iblk2 V c 0 t :=
  before2_0_of V (dat2 V q0 q1 c) (A_eq2 V q0 q1 c 0) (after2_0 V q0 q1 c) t d
theorem before2_1 (c : Dev nD) (t : Fin cfg2.N) (d) : (dat2 V q0 q1 c).before 1 t d = iblk2 V c 1 t :=
  before2_1_of V (dat2 V q0 q1 c) (A_eq2 V q0 q1 c 1) (after2_1 V q0 q1 c) t d

/-- At a later point the accumulator's buffer holds what the body left at the point before: it is written back after
    the last point only. -/
theorem before2_2_B (c : Dev nD) (t : Fin cfg2.N) (h0 : ¬t.val = 0) (d) :
    (dat2 V q0 q1 c).before 2 t d = outsAt2 V c (t.val - 1) (Nat.lt_of_le_of_lt (Nat.sub_le _ _) t.isLt) := by
  have hN : t.val < 256 := lt_of_lt_of_eq t.isLt (show cfg2.N = 256 from N_2)
  rw [Dat.before_out_kept _ 2 rfl t h0 (Bool.eq_false_iff.mpr fun h => by have := (flush2_2 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V q0 q1 c).Φ t.castSucc ∗ (dat2 V q0 q1 c).owesAt () t.castSucc
    ∗ (∃ d, owns (c : Thread nD τ) (ms2_0 t) fullShare ((dat2 V q0 q1 c).before 0 t d))
    ∗ (∃ d, owns (c : Thread nD τ) (ms2_1 t) fullShare ((dat2 V q0 q1 c).before 1 t d))
    ∗ (∃ d, owns (c : Thread nD τ) (ms2_2 t) fullShare ((dat2 V q0 q1 c).before 2 t d)))

/-- and what it returns. -/
def bodyPost2 (c : Dev nD) (t : Fin cfg2.N) : sProp 𝕄 :=
  iprop((dat2 V q0 q1 c).Φ t.succ ∗ (dat2 V q0 q1 c).owesAt () t.succ
    ∗ owns (c : Thread nD τ) (ms2_0 t) fullShare ((dat2 V q0 q1 c).after 0 t)
    ∗ owns (c : Thread nD τ) (ms2_1 t) fullShare ((dat2 V q0 q1 c).after 1 t)
    ∗ owns (c : Thread nD τ) (ms2_2 t) fullShare ((dat2 V q0 q1 c).after 2 t))

set_option maxHeartbeats 800000 in
/-- The body at any point: the inputs' buffers hold their tiles; the first point runs the reset case, a later point the
    accumulating case over what the point before left; the invariant and the core's debts pass through unread. -/
theorem sound_body2 (c : Dev nD) (t : Fin cfg2.N) :
    bodyPre2 V q0 q1 c t ⊢ wp frame (wpE (defs₀ (F := F)) Variants.none c none) Set.univ (bodyAt2 t) (fun _ => bodyPost2 V q0 q1 c t) := by
  unfold bodyPre2 bodyPost2 bodyAt2
  simp only [before2_0, before2_1]
  rw [show (dat2 V q0 q1 c).Φ t.succ = (dat2 V q0 q1 c).Φ t.castSucc from rfl,
    show (dat2 V q0 q1 c).owesAt () t.succ = (dat2 V q0 q1 c).owesAt () t.castSucc from rfl,
    after2_0, after2_1, after2_2]
  by_cases h0 : t.val = 0
  · rw [outsAt2_A V c t h0]
    unfold out2_A
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _)
  · rw [outsAt2_B V c t h0]
    simp only [before2_2_B V q0 q1 c t h0]
    unfold out2_B
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _)

/-- The body obligation, at every point. -/
theorem body_obligation2 (c : Dev nD) : BodyObligation (dat2 (F := F) V q0 q1 c) (defs₀ (F := F)) Variants.none () Set.univ := fun t => by
  rw [bigSep_W2, bigSep_W2]
  exact sound_body2 V q0 q1 c t

end Region

end Cert.Kernel.Hand

end
-- ==== Proof.K.Arr2.lean ====
/-
  This call's arrays at its two ends. Its two input windows read two different arrays and its output window a third:
  each is held whole. At exit the inputs hold their entry contents and the output array the accumulator block written
  back after the last point.
-/
import proofs.«179489_j87875030876301_1_alg».proof.Proof.K.Dat2
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The windows' arrays, one by one, each whole. -/
theorem arrays2_eq (c : Dev nD) (Fa : (w : Fin cfg2.W) → Buf (Elt F) ((cfg2.win w).arr.view.loc (c : Thread nD τ))) :
    ((dat2 V fullShare fullShare c).arrays Fa : sProp 𝕄)
      = iprop((((c : Thread nD τ).loc main_arg0) ↦{fullShare} Fa 0) ∗ (((c : Thread nD τ).loc main_arg1) ↦{fullShare} Fa 1)
          ∗ (((c : Thread nD τ).loc main_v6) ↦{fullShare} Fa 2)) := by
  unfold Dat.arrays
  rw [bigSep_W2, (arr_whole2 0).set_eq_univ, (arr_whole2 1).set_eq_univ, (arr_whole2 2).set_eq_univ]
  rfl

/-- The core's unscoped buffers as the three arrays and the rest. -/
theorem split2 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(((((c : Thread nD τ).loc main_arg0) ↦{fullShare} V' main_arg0) ∗ (((c : Thread nD τ).loc main_arg1) ↦{fullShare} V' main_arg1)
          ∗ (((c : Thread nD τ).loc main_v6) ↦{fullShare} V' main_v6)) ∗ Pipeline.unscopedRest spec2 c V') := by
  rw [show (unscopedBufs (Ix := Unit) (Name := ℕ) (U := UR sig nD τ) (Lvl := ℕ) c V' : sProp 𝕄)
      = iprop((bigSep Finset.univ fun w => (((c : Thread nD τ).loc (Pipeline.arrRef spec2 w)) ↦{fullShare} V' (Pipeline.arrRef spec2 w) : sProp 𝕄))
          ∗ Pipeline.unscopedRest spec2 c V')
    from Pipeline.unscopedBufs_split cfgs 2 winFacts2.arr_unscoped winFacts2.arr_inj c V', bigSep_W2]

/-- ENTRY: the core's unscoped buffers at `V` are the call's arrays at their entry contents and the rest. -/
theorem entry2 (c : Dev nD) :
    (unscopedBufs (Ix := Unit) (Name := ℕ) (U := UR sig nD τ) (Lvl := ℕ) c (V c) : sProp 𝕄)
      ⊢ iprop((dat2 V fullShare fullShare c).arrays ((dat2 V fullShare fullShare c).arrAt · 0)
          ∗ Pipeline.unscopedRest (Ix := Unit) (Name := ℕ) (U := UR sig nD τ) (Lvl := ℕ) spec2 c (V c)) := by
  rw [split2, arrays2_eq]
  exact .rfl

/-- EXIT: the call's arrays at their final contents and the rest at `V` are the core's unscoped buffers at any
    contents `V'` that have the output array at what the call leaves there and agree with `V` elsewhere. -/
theorem exit2 (c : Dev nD) (V' : (b : Ref sig .tc) → Buf (Elt F) ((c : Thread nD τ).loc b))
    (hout : V' main_v6 = (dat2 V fullShare fullShare c).arrAt 2 cfg2.N)
    (hrest : ∀ b : Ref sig .tc, b ≠ main_v6 → V' b = V c b) :
    iprop((dat2 V fullShare fullShare c).arrays ((dat2 V fullShare fullShare c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [split2, arrays2_eq,
    (dat2 V fullShare fullShare c).arrAt_in 0 rfl, (dat2 V fullShare fullShare c).arrAt_in 1 rfl,
    hout, hrest main_arg0 (by decide), hrest main_arg1 (by decide)]
  have hR : (Pipeline.unscopedRest (Ix := Unit) (Name := ℕ) (U := UR sig nD τ) (Lvl := ℕ) spec2 c (V c) : sProp 𝕄)
      = Pipeline.unscopedRest spec2 c V' := by
    unfold Pipeline.unscopedRest
    exact bigSep_congr fun b hb => by
      rw [hrest b (fun e => (Finset.mem_sdiff.mp hb).2 (Finset.mem_image.mpr ⟨2, Finset.mem_univ _, e.symm⟩))]
  rw [hR]
  exact .rfl

end Region

end Cert.Kernel.Hand

end
-- ==== Proof.K.Run.lean ====
/-
  The whole run of @main. Between two items every unscoped buffer of the core is held at a known valuation: the launch
  memory, then what each call leaves in its output array (the accumulator block written back after its last grid
  point), then what each stretch of host operations computes from that. Each call is a segment entered from the
  valuation before it and left at the one after it; the frame claim follows from the generated conditional frame, and
  the same launch read at the result buffer gives the program's result as the last valuation's entry there.
-/
import proofs.«179489_j87875030876301_1_alg».proof.Proof.K.Arr0
import proofs.«179489_j87875030876301_1_alg».proof.Proof.K.Arr1
import proofs.«179489_j87875030876301_1_alg».proof.Proof.K.Arr2
import proofs.«179489_j87875030876301_1_alg».proof.Proof.Gen.Kernel.Regions
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The kernel bodies take no variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The buffers' contents between items -/

/-- At launch. -/
abbrev W0 (c : Dev nD) : Valuation τ sig (Elt F) := fun b => m (c, b)
abbrev T0 : (c : Dev nD) → (b : Ref sig .tc) → Buf (Elt F) ((c : Thread nD τ).loc b) := fun c b => W0 m c b
/-- What call 0 leaves in its output array. -/
def o0 (c : Dev nD) : Buf (Elt F) ((c : Thread nD τ).loc main_v0) := (dat0 (T0 m) fullShare.left fullShare.right c).arrAt 2 cfg0.N
/-- After call 0. -/
def W1 (c : Dev nD) : Valuation τ sig (Elt F) := Function.update (W0 m c) main_v0 (o0 m c)
/-- After the first host stretch. -/
abbrev W2 (c : Dev nD) : Valuation τ sig (Elt F) := StableHlo.after hostOps1 (W1 m c)
abbrev T2 : (c : Dev nD) → (b : Ref sig .tc) → Buf (Elt F) ((c : Thread nD τ).loc b) := fun c b => W2 m c b
/-- What call 1 leaves in its output array. -/
def o1 (c : Dev nD) : Buf (Elt F) ((c : Thread nD τ).loc main_v3) := (dat1 (T2 m) fullShare.left fullShare.right c).arrAt 2 cfg1.N
/-- After call 1. -/
def W3 (c : Dev nD) : Valuation τ sig (Elt F) := Function.update (W2 m c) main_v3 (o1 m c)
/-- After the second host stretch. -/
abbrev W4 (c : Dev nD) : Valuation τ sig (Elt F) := StableHlo.after hostOps2 (W3 m c)
abbrev T4 : (c : Dev nD) → (b : Ref sig .tc) → Buf (Elt F) ((c : Thread nD τ).loc b) := fun c b => W4 m c b
/-- What call 2 leaves in its output array. -/
def o2 (c : Dev nD) : Buf (Elt F) ((c : Thread nD τ).loc main_v6) := (dat2 (T4 m) fullShare fullShare c).arrAt 2 cfg2.N
/-- After call 2. -/
def W5 (c : Dev nD) : Valuation τ sig (Elt F) := Function.update (W4 m c) main_v6 (o2 m c)
/-- After the last host stretch: at the return. -/
abbrev W6 (c : Dev nD) : Valuation τ sig (Elt F) := StableHlo.after hostOps3 (W5 m c)

/-- What the calls leave, as the generated conditional frame reads it. -/
def outs : Outs (F := F) := fun J r c => match J with
  | 1 => W1 m c r
  | 3 => W3 m c r
  | 5 => W5 m c r
  | _ => W0 m c r

theorem V1_eq (c : Dev nD) : V1 m (outs m) c = W1 m c := by
  show Function.update (V0 m c) main_v0 (W1 m c main_v0) = W1 m c
  unfold W1; rw [Function.update_self]
theorem V2_eq (c : Dev nD) : V2 m (outs m) c = W2 m c := congrArg (StableHlo.after hostOps1) (V1_eq m c)
theorem V3_eq (c : Dev nD) : V3 m (outs m) c = W3 m c := by
  show Function.update (V2 m (outs m) c) main_v3 (W3 m c main_v3) = W3 m c
  rw [V2_eq]; unfold W3; rw [Function.update_self]
theorem V4_eq (c : Dev nD) : V4 m (outs m) c = W4 m c := congrArg (StableHlo.after hostOps2) (V3_eq m c)
theorem V5_eq (c : Dev nD) : V5 m (outs m) c = W5 m c := by
  show Function.update (V4 m (outs m) c) main_v6 (W5 m c main_v6) = W5 m c
  rw [V4_eq]; unfold W5; rw [Function.update_self]
theorem V6_eq (c : Dev nD) : V6 m (outs m) c = W6 m c := congrArg (StableHlo.after hostOps3) (V5_eq m c)

/-! ## The proof data family and the calls as segments -/

/-- Every call's proof data, each at its entry contents: a literal match on the call's number. -/
def pdats : (p : Fin 3) → (c : Dev nD) → Dat τ (Elt F) Unit ℕ (UR sig nD τ) ℕ (cfgs p) c
  | ⟨0, _⟩ => fun c => dat0 (T0 m) fullShare.left fullShare.right c
  | ⟨1, _⟩ => fun c => dat1 (T2 m) fullShare.left fullShare.right c
  | ⟨2, _⟩ => fun c => dat2 (T4 m) fullShare fullShare c

set_option backward.isDefEq.respectTransparency.types false in
/-- Call 0 as a segment: entered from every unscoped buffer at `W0`, left with them at `W1`. Its arrays are sorted
    out of the unscoped buffers at entry and put back at exit; the generator register goes into the body's invariant
    and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (T0 m) fullShare.left fullShare.right c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (T0 m c)
  hentry c := by
    rw [Pipeline.ownSems0_none]
    have hsplit := entry0 (T0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (T0 m) c (fun b => W1 m c b) (by unfold W1; exact Function.update_self ..)
      (fun b hb => by unfold W1; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer at `W2`, left with them at `W3`. Its arrays are sorted
    out of the unscoped buffers at entry and put back at exit; the generator register goes into the body's invariant
    and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) fullShare.left fullShare.right c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := entry1 (T2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (T2 m) c (fun b => W3 m c b) (by unfold W3; exact Function.update_self ..)
      (fun b hb => by unfold W3; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer at `W4`, left with them at `W5`. Its arrays are sorted
    out of the unscoped buffers at entry and put back at exit; the generator register goes into the body's invariant
    and comes back; nothing is owed; the kernel has no semaphore of its own. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (T4 m) fullShare fullShare c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := entry2 (T4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (T4 m) c (fun b => W5 m c b) (by unfold W5; exact Function.update_self ..)
      (fun b hb => by unfold W5; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

variable (ρ : Dev nD → PrngReg)

/-- The launch element is the pipeline library's own, and leaves no other ghost resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals makes the riding state on every core. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main terminates, nothing faulting, and the argument arrays end as
    launched — the generated conditional frame at the three calls' segments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)

end Cert.Kernel.Hand

end
-- ==== Proof.KI.Body0.lean ====
/-
  The kernel body of this call, run once per control case. The body resets the 1 × 128 accumulator block to zero
  when both grid coordinates are zero, then loads the two 512 × 512 tiles and the accumulator, and stores the accumulator
  plus the tiles' kernel sum. At the first grid point the accumulator read back is the zero block just stored; at every
  other point it is what the previous point left.
-/
import proofs.«179489_j87875030876301_1_alg».proof.Proof.Gen.KernelIdeal.Launch
import proofs.«179489_j87875030876301_1_alg».proof.Proof.Gen.KernelIdeal.Skeleton
import proofs.«179489_j87875030876301_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset test: both grid coordinates are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- At the first point: whatever the accumulator held, the body leaves the two tiles as they were and the accumulator
    written by its two stores (the pieces the run finds, last first). -/
noncomputable def kernelRun0_A (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond0 i)
    (x0 x1 : Vec F S512x512 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At every other point: the accumulator holding `xo`, the body leaves the two tiles as they were and the accumulator
    written by its one store. -/
noncomputable def kernelRun0_B (c : Dev nD) (i : grid0.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond0 i)
    (x0 x1 : Vec F S512x512 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__sumexp_kernel i arg2 harg2 arg3 harg3 arg4 harg4) K } := by
  refine ⟨?_, fun E K => ?run⟩
  case run =>
    simp only [cc0__sumexp_kernel_eq_skeleton]; unfold cc0__sumexp_kernel_skel
    simp only [k0_part1_eq_skeleton]; unfold k0_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Dat0.lean ====
/-
  This call's proof data, at the contents `V` its arrays hold when the call is entered. Each input window's
  staging buffer holds the window's tile at every grid point, fetched there or not; the output window's buffer holds,
  after point `n`, what the body's stores leave there: at the first point the reset case's result, at a later point the
  accumulating case's result over what the point before left (the buffer is written back after the last point only).
  The two input windows may be windows of ONE array: the share each holds of it is a parameter.
-/
import proofs.«179489_j87875030876301_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s tile at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its tile at every point, fetched there or not (unfetched, the tile's index
    has not moved), for any proof data over `V` whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of the output window, through which its contents are stated. -/
abbrev VO0 : View sig .tc .vmem S1x128 .f32 := (Memref.whole cc0_stg2_0 : Memref sig .tc .vmem S1x128 .f32).view
/-- Each window's current staging memref at point `t`, as the pipeline passes it to the body, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

/-- The reset case's stores cover the accumulator block. -/
theorem cover0_A (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond0 i) (x0 x1 : Vec F S512x512 .f32) (y : S1x128.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x128.size (by sl_kernel_rfl) y

/-- What the reset case leaves in the accumulator block. -/
def out0_A (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond0 i) (x0 x1 : Vec F S512x512 .f32) : Vec F S1x128 .f32 :=
  VO0.read (Elt F) (VO0.writes (Elt F) VO0.junk (kernelRun0_A c i arg2 harg2 arg3 harg3 arg4 harg4 hc0 x0 x1).1)

/-- The accumulating case's store covers the accumulator block. -/
theorem cover0_B (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond0 i) (x0 x1 : Vec F S512x512 .f32) (xo : Vec F S1x128 .f32) (y : S1x128.Idx) :
    ∃ pc ∈ (kernelRun0_B c i arg2 harg2 arg3 harg3 arg4 harg4 hc0 x0 x1 xo).1, y ∈ pc.1.set :=
  View.cover_of_tiledL (kernelRun0_B c i arg2 harg2 arg3 harg3 arg4 harg4 hc0 x0 x1 xo).1 S1x128.size (by sl_kernel_rfl) y

/-- What the accumulating case leaves in the accumulator block. -/
def out0_B (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond0 i) (x0 x1 : Vec F S512x512 .f32) (xo : Vec F S1x128 .f32) : Vec F S1x128 .f32 :=
  VO0.read (Elt F) (VO0.writes (Elt F) VO0.junk (kernelRun0_B c i arg2 harg2 arg3 harg3 arg4 harg4 hc0 x0 x1 xo).1)

/-- The accumulation: what the accumulator block holds after the body at position `n`. -/
def outsAt0 (c : Dev nD) : (n : ℕ) → n < cfg0.N → Vec F S1x128 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0 ⟨0, hn⟩).mpr rfl) (iblk0 V c 0 ⟨0, hn⟩) (iblk0 V c 1 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
      (fun h => absurd ((hcond0 ⟨n + 1, hn⟩).mp h) (Nat.succ_ne_zero n)) (iblk0 V c 0 ⟨n + 1, hn⟩) (iblk0 V c 1 ⟨n + 1, hn⟩) (outsAt0 c n (Nat.lt_of_succ_lt hn))

/-- At the first point: the reset case's contents. -/
theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact absurd h0 (Nat.succ_ne_zero n)

/-- At a later point: the accumulating case's contents, over what the point before left. -/
theorem outsAt0_B (c : Dev nD) (t : Fin cfg0.N) (h0 : ¬t.val = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t)
      (outsAt0 V c (t.val - 1) (Nat.lt_of_le_of_lt (Nat.sub_le _ _) t.isLt)) := by
  obtain ⟨n, hn⟩ := t
  cases n with
  | zero => exact absurd rfl h0
  | succ n => exact rfl

/-- The proof data of the call on core `c`: the arrays as the call finds them; after the body at point `t` each input's
    buffer at its tile and the accumulator's at `outsAt0`; the invariant the scoped rest and the generator register,
    untouched; nothing owed; the input arrays held at the shares `q0`, `q1`. -/
def dat0 (q0 q1 : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => q0
    | ⟨1, _⟩ => q1
    | ⟨2, _⟩ => fullShare
  owed _ := 0

variable (q0 q1 : PosShare TreeShare)

theorem A_eq0 (c : Dev nD) (w : Fin cfg0.W) : (dat0 V q0 q1 c).A w = V c (Pipeline.arrRef spec0 w) := by
  dsimp only [dat0]

theorem after0_0 (c : Dev nD) (t : Fin cfg0.N) : (dat0 V q0 q1 c).after 0 t = iblk0 V c 0 t := by dsimp only [dat0]
theorem after0_1 (c : Dev nD) (t : Fin cfg0.N) : (dat0 V q0 q1 c).after 1 t = iblk0 V c 1 t := by dsimp only [dat0]
theorem after0_2 (c : Dev nD) (t : Fin cfg0.N) : (dat0 V q0 q1 c).after 2 t = outsAt0 V c t.val t.isLt := by dsimp only [dat0]

theorem before0_0 (c : Dev nD) (t : Fin cfg0.N) (d) : (dat0 V q0 q1 c).before 0 t d = iblk0 V c 0 t :=
  before0_0_of V (dat0 V q0 q1 c) (A_eq0 V q0 q1 c 0) (after0_0 V q0 q1 c) t d
theorem before0_1 (c : Dev nD) (t : Fin cfg0.N) (d) : (dat0 V q0 q1 c).before 1 t d = iblk0 V c 1 t :=
  before0_1_of V (dat0 V q0 q1 c) (A_eq0 V q0 q1 c 1) (after0_1 V q0 q1 c) t d

/-- At a later point the accumulator's buffer holds what the body left at the point before: it is written back after
    the last point only. -/
theorem before0_2_B (c : Dev nD) (t : Fin cfg0.N) (h0 : ¬t.val = 0) (d) :
    (dat0 V q0 q1 c).before 2 t d = outsAt0 V c (t.val - 1) (Nat.lt_of_le_of_lt (Nat.sub_le _ _) t.isLt) := by
  have hN : t.val < 256 := lt_of_lt_of_eq t.isLt (show cfg0.N = 256 from N_0)
  rw [Dat.before_out_kept _ 2 rfl t h0 (Bool.eq_false_iff.mpr fun h => by have := (flush0_2 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V q0 q1 c).Φ t.castSucc ∗ (dat0 V q0 q1 c).owesAt () t.castSucc
    ∗ (∃ d, owns (c : Thread nD τ) (ms0_0 t) fullShare ((dat0 V q0 q1 c).before 0 t d))
    ∗ (∃ d, owns (c : Thread nD τ) (ms0_1 t) fullShare ((dat0 V q0 q1 c).before 1 t d))
    ∗ (∃ d, owns (c : Thread nD τ) (ms0_2 t) fullShare ((dat0 V q0 q1 c).before 2 t d)))

/-- and what it returns. -/
def bodyPost0 (c : Dev nD) (t : Fin cfg0.N) : sProp 𝕄 :=
  iprop((dat0 V q0 q1 c).Φ t.succ ∗ (dat0 V q0 q1 c).owesAt () t.succ
    ∗ owns (c : Thread nD τ) (ms0_0 t) fullShare ((dat0 V q0 q1 c).after 0 t)
    ∗ owns (c : Thread nD τ) (ms0_1 t) fullShare ((dat0 V q0 q1 c).after 1 t)
    ∗ owns (c : Thread nD τ) (ms0_2 t) fullShare ((dat0 V q0 q1 c).after 2 t))

set_option maxHeartbeats 800000 in
/-- The body at any point: the inputs' buffers hold their tiles; the first point runs the reset case, a later point the
    accumulating case over what the point before left; the invariant and the core's debts pass through unread. -/
theorem sound_body0 (c : Dev nD) (t : Fin cfg0.N) :
    bodyPre0 V q0 q1 c t ⊢ wp frame (wpE (defs₀ (F := F)) Variants.none c none) Set.univ (bodyAt0 t) (fun _ => bodyPost0 V q0 q1 c t) := by
  unfold bodyPre0 bodyPost0 bodyAt0
  simp only [before0_0, before0_1]
  rw [show (dat0 V q0 q1 c).Φ t.succ = (dat0 V q0 q1 c).Φ t.castSucc from rfl,
    show (dat0 V q0 q1 c).owesAt () t.succ = (dat0 V q0 q1 c).owesAt () t.castSucc from rfl,
    after0_0, after0_1, after0_2]
  by_cases h0 : t.val = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V q0 q1 c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

/-- The body obligation, at every point. -/
theorem body_obligation0 (c : Dev nD) : BodyObligation (dat0 (F := F) V q0 q1 c) (defs₀ (F := F)) Variants.none () Set.univ := fun t => by
  rw [bigSep_W0, bigSep_W0]
  exact sound_body0 V q0 q1 c t

end Region

end Cert.KernelIdeal.Hand

end
-- ==== Proof.KI.Arr0.lean ====
/-
  This call's arrays at its two ends. Its two input windows read ONE array: at entry the array's full share is dealt
  to them as its left and right halves, and at exit the halves, both still at the entry contents, are rejoined. The
  output window's array is held whole: at exit it holds the accumulator block written back after the last point.
-/
import proofs.«179489_j87875030876301_1_alg».proof.Proof.KI.Dat0
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The windows' arrays, one by one: the shared input array at the two halves, the output array whole. -/
theorem arrays0_eq (c : Dev nD) (Fa : (w : Fin cfg0.W) → Buf (Elt F) ((cfg0.win w).arr.view.loc (c : Thread nD τ))) :
    ((dat0 V fullShare.left fullShare.right c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2)) := by
  unfold Dat.arrays
  rw [bigSep_W0, (arr_whole0 0).set_eq_univ, (arr_whole0 2).set_eq_univ]
  rfl

/-- The distinct buffers behind the windows' arrays. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_v0) ↦{fullShare} V' main_v0)) := by
  unfold Pipeline.arrBufs
  rw [show Finset.univ.image (Pipeline.arrRef spec0) = {main_arg0, main_v0} from by decide,
    bigSep_insert (by decide), bigSep_singleton]
  rfl

/-- ENTRY: the core's unscoped buffers at `V` are the call's arrays at their entry contents and the rest. -/
theorem entry0 (c : Dev nD) :
    (unscopedBufs (Ix := Unit) (Name := ℕ) (U := UR sig nD τ) (Lvl := ℕ) c (V c) : sProp 𝕄)
      ⊢ iprop((dat0 V fullShare.left fullShare.right c).arrays ((dat0 V fullShare.left fullShare.right c).arrAt · 0)
          ∗ Pipeline.unscopedRest (Ix := Unit) (Name := ℕ) (U := UR sig nD τ) (Lvl := ℕ) spec0 c (V c)) := by
  rw [show (unscopedBufs (Ix := Unit) (Name := ℕ) (U := UR sig nD τ) (Lvl := ℕ) c (V c) : sProp 𝕄)
      = iprop(Pipeline.arrBufs spec0 c (V c) ∗ Pipeline.unscopedRest spec0 c (V c))
    from Pipeline.unscopedBufs_split₀ cfgs (0 : Fin 3) winFacts₀0.arr_unscoped c (V c), arrBufs0_eq, arrays0_eq]
  iintro ⟨⟨Ha, Hv⟩, Hrest⟩
  ihave Ha := (pointsTo_share (PosShare.mem_left_op_right fullShare)).1 $$ Ha
  icases Ha with ⟨Ha1, Ha2⟩
  isplitr [Hrest]
  · isplitl [Ha1]; · iexact Ha1
    isplitl [Ha2]; · iexact Ha2
    iexact Hv
  iexact Hrest

/-- EXIT: the call's arrays at their final contents and the rest at `V` are the core's unscoped buffers at any
    contents `V'` that have the output array at what the call leaves there and agree with `V` elsewhere. -/
theorem exit0 (c : Dev nD) (V' : (b : Ref sig .tc) → Buf (Elt F) ((c : Thread nD τ).loc b))
    (hout : V' main_v0 = (dat0 V fullShare.left fullShare.right c).arrAt 2 cfg0.N)
    (hrest : ∀ b : Ref sig .tc, b ≠ main_v0 → V' b = V c b) :
    iprop((dat0 V fullShare.left fullShare.right c).arrays ((dat0 V fullShare.left fullShare.right c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [show (unscopedBufs (Ix := Unit) (Name := ℕ) (U := UR sig nD τ) (Lvl := ℕ) c V' : sProp 𝕄)
      = iprop(Pipeline.arrBufs spec0 c V' ∗ Pipeline.unscopedRest spec0 c V')
    from Pipeline.unscopedBufs_split₀ cfgs (0 : Fin 3) winFacts₀0.arr_unscoped c V', arrBufs0_eq, arrays0_eq,
    (dat0 V fullShare.left fullShare.right c).arrAt_in 0 rfl, (dat0 V fullShare.left fullShare.right c).arrAt_in 1 rfl,
    hout, hrest main_arg0 (by decide)]
  have hR : (Pipeline.unscopedRest (Ix := Unit) (Name := ℕ) (U := UR sig nD τ) (Lvl := ℕ) spec0 c (V c) : sProp 𝕄)
      = Pipeline.unscopedRest spec0 c V' := by
    unfold Pipeline.unscopedRest
    exact bigSep_congr fun b hb => by
      rw [hrest b (fun e => (Finset.mem_sdiff.mp hb).2 (Finset.mem_image.mpr ⟨2, Finset.mem_univ _, e.symm⟩))]
  rw [hR]
  iintro ⟨⟨Ha1, Ha2, Hv⟩, Hrest⟩
  isplitr [Hrest]
  · isplitr [Hv]
    · iapply (pointsTo_share (PosShare.mem_left_op_right fullShare)).2
      isplitl [Ha1]; · iexact Ha1
      iexact Ha2
    iexact Hv
  iexact Hrest

end Region

end Cert.KernelIdeal.Hand

end
-- ==== Proof.KI.Body1.lean ====
/-
  The kernel body of this call, run once per control case. The body resets the 1 × 128 accumulator block to zero
  when both grid coordinates are zero, then loads the two 512 × 512 tiles and the accumulator, and stores the accumulator
  plus the tiles' kernel sum. At the first grid point the accumulator read back is the zero block just stored; at every
  other point it is what the previous point left.
-/
import proofs.«179489_j87875030876301_1_alg».proof.Proof.Gen.KernelIdeal.Launch
import proofs.«179489_j87875030876301_1_alg».proof.Proof.Gen.KernelIdeal.Skeleton
import proofs.«179489_j87875030876301_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset test: both grid coordinates are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- At the first point: whatever the accumulator held, the body leaves the two tiles as they were and the accumulator
    written by its two stores (the pieces the run finds, last first). -/
noncomputable def kernelRun1_A (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond1 i)
    (x0 x1 : Vec F S512x512 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At every other point: the accumulator holding `xo`, the body leaves the two tiles as they were and the accumulator
    written by its one store. -/
noncomputable def kernelRun1_B (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond1 i)
    (x0 x1 : Vec F S512x512 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc1__sumexp_kernel i arg2 harg2 arg3 harg3 arg4 harg4) K } := by
  refine ⟨?_, fun E K => ?run⟩
  case run =>
    simp only [cc1__sumexp_kernel_eq_skeleton]; unfold cc1__sumexp_kernel_skel
    simp only [k1_part1_eq_skeleton]; unfold k1_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Dat1.lean ====
/-
  This call's proof data, at the contents `V` its arrays hold when the call is entered. Each input window's
  staging buffer holds the window's tile at every grid point, fetched there or not; the output window's buffer holds,
  after point `n`, what the body's stores leave there: at the first point the reset case's result, at a later point the
  accumulating case's result over what the point before left (the buffer is written back after the last point only).
  The two input windows may be windows of ONE array: the share each holds of it is a parameter.
-/
import proofs.«179489_j87875030876301_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s tile at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its tile at every point, fetched there or not (unfetched, the tile's index
    has not moved), for any proof data over `V` whose body leaves the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1 : View sig .tc .vmem S1x128 .f32 := (Memref.whole cc1_stg2_0 : Memref sig .tc .vmem S1x128 .f32).view
/-- Each window's current staging memref at point `t`, as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

/-- The reset case's stores cover the accumulator block. -/
theorem cover1_A (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond1 i) (x0 x1 : Vec F S512x512 .f32) (y : S1x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x128.size (by sl_kernel_rfl) y

/-- What the reset case leaves in the accumulator block. -/
def out1_A (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond1 i) (x0 x1 : Vec F S512x512 .f32) : Vec F S1x128 .f32 :=
  VO1.read (Elt F) (VO1.writes (Elt F) VO1.junk (kernelRun1_A c i arg2 harg2 arg3 harg3 arg4 harg4 hc0 x0 x1).1)

/-- The accumulating case's store covers the accumulator block. -/
theorem cover1_B (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond1 i) (x0 x1 : Vec F S512x512 .f32) (xo : Vec F S1x128 .f32) (y : S1x128.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S1x128.size (by sl_kernel_rfl) y

/-- What the accumulating case leaves in the accumulator block. -/
def out1_B (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond1 i) (x0 x1 : Vec F S512x512 .f32) (xo : Vec F S1x128 .f32) : Vec F S1x128 .f32 :=
  VO1.read (Elt F) (VO1.writes (Elt F) VO1.junk (kernelRun1_B c i arg2 harg2 arg3 harg3 arg4 harg4 hc0 x0 x1 xo).1)

/-- The accumulation: what the accumulator block holds after the body at position `n`. -/
def outsAt1 (c : Dev nD) : (n : ℕ) → n < cfg1.N → Vec F S1x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1 ⟨0, hn⟩).mpr rfl) (iblk1 V c 0 ⟨0, hn⟩) (iblk1 V c 1 ⟨0, hn⟩)
  | n + 1, hn => out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
      (fun h => absurd ((hcond1 ⟨n + 1, hn⟩).mp h) (Nat.succ_ne_zero n)) (iblk1 V c 0 ⟨n + 1, hn⟩) (iblk1 V c 1 ⟨n + 1, hn⟩) (outsAt1 c n (Nat.lt_of_succ_lt hn))

/-- At the first point: the reset case's contents. -/
theorem outsAt1_A (c : Dev nD) (t : Fin cfg1.N) (h0 : t.val = 0) :
    outsAt1 V c t.val t.isLt = out1_A c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact absurd h0 (Nat.succ_ne_zero n)

/-- At a later point: the accumulating case's contents, over what the point before left. -/
theorem outsAt1_B (c : Dev nD) (t : Fin cfg1.N) (h0 : ¬t.val = 0) :
    outsAt1 V c t.val t.isLt = out1_B c (grid1.coords t) (ms1_0 t) (hs1_0 t) (ms1_1 t) (hs1_1 t) (ms1_2 t) (hs1_2 t) (fun h => h0 ((hcond1 t).mp h)) (iblk1 V c 0 t) (iblk1 V c 1 t)
      (outsAt1 V c (t.val - 1) (Nat.lt_of_le_of_lt (Nat.sub_le _ _) t.isLt)) := by
  obtain ⟨n, hn⟩ := t
  cases n with
  | zero => exact absurd rfl h0
  | succ n => exact rfl

/-- The proof data of the call on core `c`: the arrays as the call finds them; after the body at point `t` each input's
    buffer at its tile and the accumulator's at `outsAt1`; the invariant the scoped rest and the generator register,
    untouched; nothing owed; the input arrays held at the shares `q0`, `q1`. -/
def dat1 (q0 q1 : PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => q0
    | ⟨1, _⟩ => q1
    | ⟨2, _⟩ => fullShare
  owed _ := 0

variable (q0 q1 : PosShare TreeShare)

theorem A_eq1 (c : Dev nD) (w : Fin cfg1.W) : (dat1 V q0 q1 c).A w = V c (Pipeline.arrRef spec1 w) := by
  dsimp only [dat1]

theorem after1_0 (c : Dev nD) (t : Fin cfg1.N) : (dat1 V q0 q1 c).after 0 t = iblk1 V c 0 t := by dsimp only [dat1]
theorem after1_1 (c : Dev nD) (t : Fin cfg1.N) : (dat1 V q0 q1 c).after 1 t = iblk1 V c 1 t := by dsimp only [dat1]
theorem after1_2 (c : Dev nD) (t : Fin cfg1.N) : (dat1 V q0 q1 c).after 2 t = outsAt1 V c t.val t.isLt := by dsimp only [dat1]

theorem before1_0 (c : Dev nD) (t : Fin cfg1.N) (d) : (dat1 V q0 q1 c).before 0 t d = iblk1 V c 0 t :=
  before1_0_of V (dat1 V q0 q1 c) (A_eq1 V q0 q1 c 0) (after1_0 V q0 q1 c) t d
theorem before1_1 (c : Dev nD) (t : Fin cfg1.N) (d) : (dat1 V q0 q1 c).before 1 t d = iblk1 V c 1 t :=
  before1_1_of V (dat1 V q0 q1 c) (A_eq1 V q0 q1 c 1) (after1_1 V q0 q1 c) t d

/-- At a later point the accumulator's buffer holds what the body left at the point before: it is written back after
    the last point only. -/
theorem before1_2_B (c : Dev nD) (t : Fin cfg1.N) (h0 : ¬t.val = 0) (d) :
    (dat1 V q0 q1 c).before 2 t d = outsAt1 V c (t.val - 1) (Nat.lt_of_le_of_lt (Nat.sub_le _ _) t.isLt) := by
  have hN : t.val < 256 := lt_of_lt_of_eq t.isLt (show cfg1.N = 256 from N_1)
  rw [Dat.before_out_kept _ 2 rfl t h0 (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V q0 q1 c).Φ t.castSucc ∗ (dat1 V q0 q1 c).owesAt () t.castSucc
    ∗ (∃ d, owns (c : Thread nD τ) (ms1_0 t) fullShare ((dat1 V q0 q1 c).before 0 t d))
    ∗ (∃ d, owns (c : Thread nD τ) (ms1_1 t) fullShare ((dat1 V q0 q1 c).before 1 t d))
    ∗ (∃ d, owns (c : Thread nD τ) (ms1_2 t) fullShare ((dat1 V q0 q1 c).before 2 t d)))

/-- and what it returns. -/
def bodyPost1 (c : Dev nD) (t : Fin cfg1.N) : sProp 𝕄 :=
  iprop((dat1 V q0 q1 c).Φ t.succ ∗ (dat1 V q0 q1 c).owesAt () t.succ
    ∗ owns (c : Thread nD τ) (ms1_0 t) fullShare ((dat1 V q0 q1 c).after 0 t)
    ∗ owns (c : Thread nD τ) (ms1_1 t) fullShare ((dat1 V q0 q1 c).after 1 t)
    ∗ owns (c : Thread nD τ) (ms1_2 t) fullShare ((dat1 V q0 q1 c).after 2 t))

set_option maxHeartbeats 800000 in
/-- The body at any point: the inputs' buffers hold their tiles; the first point runs the reset case, a later point the
    accumulating case over what the point before left; the invariant and the core's debts pass through unread. -/
theorem sound_body1 (c : Dev nD) (t : Fin cfg1.N) :
    bodyPre1 V q0 q1 c t ⊢ wp frame (wpE (defs₀ (F := F)) Variants.none c none) Set.univ (bodyAt1 t) (fun _ => bodyPost1 V q0 q1 c t) := by
  unfold bodyPre1 bodyPost1 bodyAt1
  simp only [before1_0, before1_1]
  rw [show (dat1 V q0 q1 c).Φ t.succ = (dat1 V q0 q1 c).Φ t.castSucc from rfl,
    show (dat1 V q0 q1 c).owesAt () t.succ = (dat1 V q0 q1 c).owesAt () t.castSucc from rfl,
    after1_0, after1_1, after1_2]
  by_cases h0 : t.val = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V q0 q1 c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The body obligation, at every point. -/
theorem body_obligation1 (c : Dev nD) : BodyObligation (dat1 (F := F) V q0 q1 c) (defs₀ (F := F)) Variants.none () Set.univ := fun t => by
  rw [bigSep_W1, bigSep_W1]
  exact sound_body1 V q0 q1 c t

end Region

end Cert.KernelIdeal.Hand

end
-- ==== Proof.KI.Arr1.lean ====
/-
  This call's arrays at its two ends. Its two input windows read ONE array: at entry the array's full share is dealt
  to them as its left and right halves, and at exit the halves, both still at the entry contents, are rejoined. The
  output window's array is held whole: at exit it holds the accumulator block written back after the last point.
-/
import proofs.«179489_j87875030876301_1_alg».proof.Proof.KI.Dat1
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The windows' arrays, one by one: the shared input array at the two halves, the output array whole. -/
theorem arrays1_eq (c : Dev nD) (Fa : (w : Fin cfg1.W) → Buf (Elt F) ((cfg1.win w).arr.view.loc (c : Thread nD τ))) :
    ((dat1 V fullShare.left fullShare.right c).arrays Fa : sProp 𝕄)
      = iprop((((c : Thread nD τ).loc main_arg1) ↦{fullShare.left} Fa 0) ∗ (((c : Thread nD τ).loc main_arg1) ↦{fullShare.right} Fa 1)
          ∗ (((c : Thread nD τ).loc main_v3) ↦{fullShare} Fa 2)) := by
  unfold Dat.arrays
  rw [bigSep_W1, (arr_whole1 0).set_eq_univ, (arr_whole1 2).set_eq_univ]
  rfl

/-- The distinct buffers behind the windows' arrays. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v3) ↦{fullShare} V' main_v3)) := by
  unfold Pipeline.arrBufs
  rw [show Finset.univ.image (Pipeline.arrRef spec1) = {main_arg1, main_v3} from by decide,
    bigSep_insert (by decide), bigSep_singleton]
  rfl

/-- ENTRY: the core's unscoped buffers at `V` are the call's arrays at their entry contents and the rest. -/
theorem entry1 (c : Dev nD) :
    (unscopedBufs (Ix := Unit) (Name := ℕ) (U := UR sig nD τ) (Lvl := ℕ) c (V c) : sProp 𝕄)
      ⊢ iprop((dat1 V fullShare.left fullShare.right c).arrays ((dat1 V fullShare.left fullShare.right c).arrAt · 0)
          ∗ Pipeline.unscopedRest (Ix := Unit) (Name := ℕ) (U := UR sig nD τ) (Lvl := ℕ) spec1 c (V c)) := by
  rw [show (unscopedBufs (Ix := Unit) (Name := ℕ) (U := UR sig nD τ) (Lvl := ℕ) c (V c) : sProp 𝕄)
      = iprop(Pipeline.arrBufs spec1 c (V c) ∗ Pipeline.unscopedRest spec1 c (V c))
    from Pipeline.unscopedBufs_split₀ cfgs (1 : Fin 3) winFacts₀1.arr_unscoped c (V c), arrBufs1_eq, arrays1_eq]
  iintro ⟨⟨Ha, Hv⟩, Hrest⟩
  ihave Ha := (pointsTo_share (PosShare.mem_left_op_right fullShare)).1 $$ Ha
  icases Ha with ⟨Ha1, Ha2⟩
  isplitr [Hrest]
  · isplitl [Ha1]; · iexact Ha1
    isplitl [Ha2]; · iexact Ha2
    iexact Hv
  iexact Hrest

/-- EXIT: the call's arrays at their final contents and the rest at `V` are the core's unscoped buffers at any
    contents `V'` that have the output array at what the call leaves there and agree with `V` elsewhere. -/
theorem exit1 (c : Dev nD) (V' : (b : Ref sig .tc) → Buf (Elt F) ((c : Thread nD τ).loc b))
    (hout : V' main_v3 = (dat1 V fullShare.left fullShare.right c).arrAt 2 cfg1.N)
    (hrest : ∀ b : Ref sig .tc, b ≠ main_v3 → V' b = V c b) :
    iprop((dat1 V fullShare.left fullShare.right c).arrays ((dat1 V fullShare.left fullShare.right c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c V' : sProp 𝕄) := by
  rw [show (unscopedBufs (Ix := Unit) (Name := ℕ) (U := UR sig nD τ) (Lvl := ℕ) c V' : sProp 𝕄)
      = iprop(Pipeline.arrBufs spec1 c V' ∗ Pipeline.unscopedRest spec1 c V')
    from Pipeline.unscopedBufs_split₀ cfgs (1 : Fin 3) winFacts₀1.arr_unscoped c V', arrBufs1_eq, arrays1_eq,
    (dat1 V fullShare.left fullShare.right c).arrAt_in 0 rfl, (dat1 V fullShare.left fullShare.right c).arrAt_in 1 rfl,
    hout, hrest main_arg1 (by decide)]
  have hR : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by
      rw [hrest b (fun e => (Finset.mem_sdiff.mp hb).2 (Finset.mem_image.mpr ⟨2, Finset.mem_univ _, e.symm⟩))]
  rw [hR]
  iintro ⟨⟨Ha1, Ha2, Hv⟩, Hrest⟩
  isplitr [Hrest]
  · isplitr [Hv]
    · iapply (pointsTo_share (PosShare.mem_left_op_right fullShare)).2
      isplitl [Ha1]; · iexact Ha1
      iexact Ha2
    iexact Hv
  iexact Hrest

end Region

end Cert.KernelIdeal.Hand

end
-- ==== Proof.KI.Body2.lean ====
/-
  The kernel body of this call, run once per control case. The body resets the 1 × 128 accumulator block to zero
  when both grid coordinates are zero, then loads the two 512 × 512 tiles and the accumulator, and stores the accumulator
  plus the tiles' kernel sum. At the first grid point the accumulator read back is the zero block just stored; at every
  other point it is what the previous point left.
-/
import proofs.«179489_j87875030876301_1_alg».proof.Proof.Gen.KernelIdeal.Launch
import proofs.«179489_j87875030876301_1_alg».proof.Proof.Gen.KernelIdeal.Skeleton
import proofs.«179489_j87875030876301_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset test: both grid coordinates are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond2 : ∀ t : Fin cfg2.N, cond2 (grid2.coords t) ↔ t.val = 0 :=
  (by decide +kernel : ∀ t : Fin grid2.N, cond2 (grid2.coords t) ↔ t.val = 0)

set_option maxHeartbeats 1000000 in
/-- At the first point: whatever the accumulator held, the body leaves the two tiles as they were and the accumulator
    written by its two stores (the pieces the run finds, last first). -/
noncomputable def kernelRun2_A (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond2 i)
    (x0 x1 : Vec F S512x512 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At every other point: the accumulator holding `xo`, the body leaves the two tiles as they were and the accumulator
    written by its one store. -/
noncomputable def kernelRun2_B (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond2 i)
    (x0 x1 : Vec F S512x512 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc2__sumexp_kernel i arg2 harg2 arg3 harg3 arg4 harg4) K } := by
  refine ⟨?_, fun E K => ?run⟩
  case run =>
    simp only [cc2__sumexp_kernel_eq_skeleton]; unfold cc2__sumexp_kernel_skel
    simp only [k2_part1_eq_skeleton]; unfold k2_part1_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Dat2.lean ====
/-
  This call's proof data, at the contents `V` its arrays hold when the call is entered. Each input window's
  staging buffer holds the window's tile at every grid point, fetched there or not; the output window's buffer holds,
  after point `n`, what the body's stores leave there: at the first point the reset case's result, at a later point the
  accumulating case's result over what the point before left (the buffer is written back after the last point only).
  The two input windows may be windows of ONE array: the share each holds of it is a parameter.
-/
import proofs.«179489_j87875030876301_1_alg».proof.Proof.KI.Body2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- Window `w`'s tile at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its tile at every point, fetched there or not (unfetched, the tile's index
    has not moved), for any proof data over `V` whose body leaves the tile in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- One staging buffer of the output window, through which its contents are stated. -/
abbrev VO2 : View sig .tc .vmem S1x128 .f32 := (Memref.whole cc2_stg2_0 : Memref sig .tc .vmem S1x128 .f32).view
/-- Each window's current staging memref at point `t`, as the pipeline passes it to the body, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)

/-- The reset case's stores cover the accumulator block. -/
theorem cover2_A (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond2 i) (x0 x1 : Vec F S512x512 .f32) (y : S1x128.Idx) :
    ∃ pc ∈ (kernelRun2_A c i arg2 harg2 arg3 harg3 arg4 harg4 hc0 x0 x1).1, y ∈ pc.1.set :=
  View.cover_of_tiledL (kernelRun2_A c i arg2 harg2 arg3 harg3 arg4 harg4 hc0 x0 x1).1 S1x128.size (by sl_kernel_rfl) y

/-- What the reset case leaves in the accumulator block. -/
def out2_A (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond2 i) (x0 x1 : Vec F S512x512 .f32) : Vec F S1x128 .f32 :=
  VO2.read (Elt F) (VO2.writes (Elt F) VO2.junk (kernelRun2_A c i arg2 harg2 arg3 harg3 arg4 harg4 hc0 x0 x1).1)

/-- The accumulating case's store covers the accumulator block. -/
theorem cover2_B (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond2 i) (x0 x1 : Vec F S512x512 .f32) (xo : Vec F S1x128 .f32) (y : S1x128.Idx) :
    ∃ pc ∈ (kernelRun2_B c i arg2 harg2 arg3 harg3 arg4 harg4 hc0 x0 x1 xo).1, y ∈ pc.1.set :=
  View.cover_of_tiledL (kernelRun2_B c i arg2 harg2 arg3 harg3 arg4 harg4 hc0 x0 x1 xo).1 S1x128.size (by sl_kernel_rfl) y

/-- What the accumulating case leaves in the accumulator block. -/
def out2_B (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond2 i) (x0 x1 : Vec F S512x512 .f32) (xo : Vec F S1x128 .f32) : Vec F S1x128 .f32 :=
  VO2.read (Elt F) (VO2.writes (Elt F) VO2.junk (kernelRun2_B c i arg2 harg2 arg3 harg3 arg4 harg4 hc0 x0 x1 xo).1)

/-- The accumulation: what the accumulator block holds after the body at position `n`. -/
def outsAt2 (c : Dev nD) : (n : ℕ) → n < cfg2.N → Vec F S1x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩)
      ((hcond2 ⟨0, hn⟩).mpr rfl) (iblk2 V c 0 ⟨0, hn⟩) (iblk2 V c 1 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩)
      (fun h => absurd ((hcond2 ⟨n + 1, hn⟩).mp h) (Nat.succ_ne_zero n)) (iblk2 V c 0 ⟨n + 1, hn⟩) (iblk2 V c 1 ⟨n + 1, hn⟩) (outsAt2 c n (Nat.lt_of_succ_lt hn))

/-- At the first point: the reset case's contents. -/
theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact absurd h0 (Nat.succ_ne_zero n)

/-- At a later point: the accumulating case's contents, over what the point before left. -/
theorem outsAt2_B (c : Dev nD) (t : Fin cfg2.N) (h0 : ¬t.val = 0) :
    outsAt2 V c t.val t.isLt = out2_B c (grid2.coords t) (ms2_0 t) (hs2_0 t) (ms2_1 t) (hs2_1 t) (ms2_2 t) (hs2_2 t) (fun h => h0 ((hcond2 t).mp h)) (iblk2 V c 0 t) (iblk2 V c 1 t)
      (outsAt2 V c (t.val - 1) (Nat.lt_of_le_of_lt (Nat.sub_le _ _) t.isLt)) := by
  obtain ⟨n, hn⟩ := t
  cases n with
  | zero => exact absurd rfl h0
  | succ n => exact rfl

/-- The proof data of the call on core `c`: the arrays as the call finds them; after the body at point `t` each input's
    buffer at its tile and the accumulator's at `outsAt2`; the invariant the scoped rest and the generator register,
    untouched; nothing owed; the input arrays held at the shares `q0`, `q1`. -/
def dat2 (q0 q1 : PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q w := match w with
    | ⟨0, _⟩ => q0
    | ⟨1, _⟩ => q1
    | ⟨2, _⟩ => fullShare
  owed _ := 0

variable (q0 q1 : PosShare TreeShare)

theorem A_eq2 (c : Dev nD) (w : Fin cfg2.W) : (dat2 V q0 q1 c).A w = V c (Pipeline.arrRef spec2 w) := by
  dsimp only [dat2]

theorem after2_0 (c : Dev nD) (t : Fin cfg2.N) : (dat2 V q0 q1 c).after 0 t = iblk2 V c 0 t := by dsimp only [dat2]
theorem after2_1 (c : Dev nD) (t : Fin cfg2.N) : (dat2 V q0 q1 c).after 1 t = iblk2 V c 1 t := by dsimp only [dat2]
theorem after2_2 (c : Dev nD) (t : Fin cfg2.N) : (dat2 V q0 q1 c).after 2 t = outsAt2 V c t.val t.isLt := by dsimp only [dat2]

theorem before2_0 (c : Dev nD) (t : Fin cfg2.N) (d) : (dat2 V q0 q1 c).before 0 t d = iblk2 V c 0 t :=
  before2_0_of V (dat2 V q0 q1 c) (A_eq2 V q0 q1 c 0) (after2_0 V q0 q1 c) t d
theorem before2_1 (c : Dev nD) (t : Fin cfg2.N) (d) : (dat2 V q0 q1 c).before 1 t d = iblk2 V c 1 t :=
  before2_1_of V (dat2 V q0 q1 c) (A_eq2 V q0 q1 c 1) (after2_1 V q0 q1 c) t d

/-- At a later point the accumulator's buffer holds what the body left at the point before: it is written back after
    the last point only. -/
theorem before2_2_B (c : Dev nD) (t : Fin cfg2.N) (h0 : ¬t.val = 0) (d) :
    (dat2 V q0 q1 c).before 2 t d = outsAt2 V c (t.val - 1) (Nat.lt_of_le_of_lt (Nat.sub_le _ _) t.isLt) := by
  have hN : t.val < 256 := lt_of_lt_of_eq t.isLt (show cfg2.N = 256 from N_2)
  rw [Dat.before_out_kept _ 2 rfl t h0 (Bool.eq_false_iff.mpr fun h => by have := (flush2_2 _).mp h; dsimp only at this; omega)
    (fun _ => rfl) (fun _ _ => rfl)]
  dsimp only [dat2]

/-- What the body is called with at point `t`, -/
def bodyPre2 (c : Dev nD) (t : Fin cfg2.N) : sProp 𝕄 :=
  iprop((dat2 V q0 q1 c).Φ t.castSucc ∗ (dat2 V q0 q1 c).owesAt () t.castSucc
    ∗ (∃ d, owns (c : Thread nD τ) (ms2_0 t) fullShare ((dat2 V q0 q1 c).before 0 t d))
    ∗ (∃ d, owns (c : Thread nD τ) (ms2_1 t) fullShare ((dat2 V q0 q1 c).before 1 t d))
    ∗ (∃ d, owns (c : Thread nD τ) (ms2_2 t) fullShare ((dat2 V q0 q1 c).before 2 t d)))

/-- and what it returns. -/
def bodyPost2 (c : Dev nD) (t : Fin cfg2.N) : sProp 𝕄 :=
  iprop((dat2 V q0 q1 c).Φ t.succ ∗ (dat2 V q0 q1 c).owesAt () t.succ
    ∗ owns (c : Thread nD τ) (ms2_0 t) fullShare ((dat2 V q0 q1 c).after 0 t)
    ∗ owns (c : Thread nD τ) (ms2_1 t) fullShare ((dat2 V q0 q1 c).after 1 t)
    ∗ owns (c : Thread nD τ) (ms2_2 t) fullShare ((dat2 V q0 q1 c).after 2 t))

set_option maxHeartbeats 800000 in
/-- The body at any point: the inputs' buffers hold their tiles; the first point runs the reset case, a later point the
    accumulating case over what the point before left; the invariant and the core's debts pass through unread. -/
theorem sound_body2 (c : Dev nD) (t : Fin cfg2.N) :
    bodyPre2 V q0 q1 c t ⊢ wp frame (wpE (defs₀ (F := F)) Variants.none c none) Set.univ (bodyAt2 t) (fun _ => bodyPost2 V q0 q1 c t) := by
  unfold bodyPre2 bodyPost2 bodyAt2
  simp only [before2_0, before2_1]
  rw [show (dat2 V q0 q1 c).Φ t.succ = (dat2 V q0 q1 c).Φ t.castSucc from rfl,
    show (dat2 V q0 q1 c).owesAt () t.succ = (dat2 V q0 q1 c).owesAt () t.castSucc from rfl,
    after2_0, after2_1, after2_2]
  by_cases h0 : t.val = 0
  · rw [outsAt2_A V c t h0]
    unfold out2_A
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _)
  · rw [outsAt2_B V c t h0]
    simp only [before2_2_B V q0 q1 c t h0]
    unfold out2_B
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _)

/-- The body obligation, at every point. -/
theorem body_obligation2 (c : Dev nD) : BodyObligation (dat2 (F := F) V q0 q1 c) (defs₀ (F := F)) Variants.none () Set.univ := fun t => by
  rw [bigSep_W2, bigSep_W2]
  exact sound_body2 V q0 q1 c t

end Region

end Cert.KernelIdeal.Hand

end
-- ==== Proof.KI.Arr2.lean ====
/-
  This call's arrays at its two ends. Its two input windows read two different arrays and its output window a third:
  each is held whole. At exit the inputs hold their entry contents and the output array the accumulator block written
  back after the last point.
-/
import proofs.«179489_j87875030876301_1_alg».proof.Proof.KI.Dat2
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-- The windows' arrays, one by one, each whole. -/
theorem arrays2_eq (c : Dev nD) (Fa : (w : Fin cfg2.W) → Buf (Elt F) ((cfg2.win w).arr.view.loc (c : Thread nD τ))) :
    ((dat2 V fullShare fullShare c).arrays Fa : sProp 𝕄)
      = iprop((((c : Thread nD τ).loc main_arg0) ↦{fullShare} Fa 0) ∗ (((c : Thread nD τ).loc main_arg1) ↦{fullShare} Fa 1)
          ∗ (((c : Thread nD τ).loc main_v6) ↦{fullShare} Fa 2)) := by
  unfold Dat.arrays
  rw [bigSep_W2, (arr_whole2 0).set_eq_univ, (arr_whole2 1).set_eq_univ, (arr_whole2 2).set_eq_univ]
  rfl

/-- The core's unscoped buffers as the three arrays and the rest. -/
theorem split2 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(((((c : Thread nD τ).loc main_arg0) ↦{fullShare} V' main_arg0) ∗ (((c : Thread nD τ).loc main_arg1) ↦{fullShare} V' main_arg1)
          ∗ (((c : Thread nD τ).loc main_v6) ↦{fullShare} V' main_v6)) ∗ Pipeline.unscopedRest spec2 c V') := by
  rw [show (unscopedBufs (Ix := Unit) (Name := ℕ) (U := UR sig nD τ) (Lvl := ℕ) c V' : sProp 𝕄)
      = iprop((bigSep Finset.univ fun w => (((c : Thread nD τ).loc (Pipeline.arrRef spec2 w)) ↦{fullShare} V' (Pipeline.arrRef spec2 w) : sProp 𝕄))
          ∗ Pipeline.unscopedRest spec2 c V')
    from Pipeline.unscopedBufs_split cfgs 2 winFacts2.arr_unscoped winFacts2.arr_inj c V', bigSep_W2]

/-- ENTRY: the core's unscoped buffers at `V` are the call's arrays at their entry contents and the rest. -/
theorem entry2 (c : Dev nD) :
    (unscopedBufs (Ix := Unit) (Name := ℕ) (U := UR sig nD τ) (Lvl := ℕ) c (V c) : sProp 𝕄)
      ⊢ iprop((dat2 V fullShare fullShare c).arrays ((dat2 V fullShare fullShare c).arrAt · 0)
          ∗ Pipeline.unscopedRest (Ix := Unit) (Name := ℕ) (U := UR sig nD τ) (Lvl := ℕ) spec2 c (V c)) := by
  rw [split2, arrays2_eq]
  exact .rfl

/-- EXIT: the call's arrays at their final contents and the rest at `V` are the core's unscoped buffers at any
    contents `V'` that have the output array at what the call leaves there and agree with `V` elsewhere. -/
theorem exit2 (c : Dev nD) (V' : (b : Ref sig .tc) → Buf (Elt F) ((c : Thread nD τ).loc b))
    (hout : V' main_v6 = (dat2 V fullShare fullShare c).arrAt 2 cfg2.N)
    (hrest : ∀ b : Ref sig .tc, b ≠ main_v6 → V' b = V c b) :
    iprop((dat2 V fullShare fullShare c).arrays ((dat2 V fullShare fullShare c).arrAt · cfg2.N)
        ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [split2, arrays2_eq,
    (dat2 V fullShare fullShare c).arrAt_in 0 rfl, (dat2 V fullShare fullShare c).arrAt_in 1 rfl,
    hout, hrest main_arg0 (by decide), hrest main_arg1 (by decide)]
  have hR : (Pipeline.unscopedRest (Ix := Unit) (Name := ℕ) (U := UR sig nD τ) (Lvl := ℕ) spec2 c (V c) : sProp 𝕄)
      = Pipeline.unscopedRest spec2 c V' := by
    unfold Pipeline.unscopedRest
    exact bigSep_congr fun b hb => by
      rw [hrest b (fun e => (Finset.mem_sdiff.mp hb).2 (Finset.mem_image.mpr ⟨2, Finset.mem_univ _, e.symm⟩))]
  rw [hR]
  exact .rfl

end Region

end Cert.KernelIdeal.Hand

end
-- ==== Proof.KI.Run.lean ====
/-
  The whole run of @main. Between two items every unscoped buffer of the core is held at a known valuation: the launch
  memory, then what each call leaves in its output array (the accumulator block written back after its last grid
  point), then what each stretch of host operations computes from that. Each call is a segment entered from the
  valuation before it and left at the one after it; the frame claim follows from the generated conditional frame, and
  the same launch read at the result buffer gives the program's result as the last valuation's entry there.
-/
import proofs.«179489_j87875030876301_1_alg».proof.Proof.KI.Arr0
import proofs.«179489_j87875030876301_1_alg».proof.Proof.KI.Arr1
import proofs.«179489_j87875030876301_1_alg».proof.Proof.KI.Arr2
import proofs.«179489_j87875030876301_1_alg».proof.Proof.Gen.KernelIdeal.Regions
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- The kernel bodies take no variant. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## The buffers' contents between items -/

/-- At launch. -/
abbrev W0 (c : Dev nD) : Valuation τ sig (Elt F) := fun b => m (c, b)
abbrev T0 : (c : Dev nD) → (b : Ref sig .tc) → Buf (Elt F) ((c : Thread nD τ).loc b) := fun c b => W0 m c b
/-- What call 0 leaves in its output array. -/
def o0 (c : Dev nD) : Buf (Elt F) ((c : Thread nD τ).loc main_v0) := (dat0 (T0 m) fullShare.left fullShare.right c).arrAt 2 cfg0.N
/-- After call 0. -/
def W1 (c : Dev nD) : Valuation τ sig (Elt F) := Function.update (W0 m c) main_v0 (o0 m c)
/-- After the first host stretch. -/
abbrev W2 (c : Dev nD) : Valuation τ sig (Elt F) := StableHlo.after hostOps1 (W1 m c)
abbrev T2 : (c : Dev nD) → (b : Ref sig .tc) → Buf (Elt F) ((c : Thread nD τ).loc b) := fun c b => W2 m c b
/-- What call 1 leaves in its output array. -/
def o1 (c : Dev nD) : Buf (Elt F) ((c : Thread nD τ).loc main_v3) := (dat1 (T2 m) fullShare.left fullShare.right c).arrAt 2 cfg1.N
/-- After call 1. -/
def W3 (c : Dev nD) : Valuation τ sig (Elt F) := Function.update (W2 m c) main_v3 (o1 m c)
/-- After the second host stretch. -/
abbrev W4 (c : Dev nD) : Valuation τ sig (Elt F) := StableHlo.after hostOps2 (W3 m c)
abbrev T4 : (c : Dev nD) → (b : Ref sig .tc) → Buf (Elt F) ((c : Thread nD τ).loc b) := fun c b => W4 m c b
/-- What call 2 leaves in its output array. -/
def o2 (c : Dev nD) : Buf (Elt F) ((c : Thread nD τ).loc main_v6) := (dat2 (T4 m) fullShare fullShare c).arrAt 2 cfg2.N
/-- After call 2. -/
def W5 (c : Dev nD) : Valuation τ sig (Elt F) := Function.update (W4 m c) main_v6 (o2 m c)
/-- After the last host stretch: at the return. -/
abbrev W6 (c : Dev nD) : Valuation τ sig (Elt F) := StableHlo.after hostOps3 (W5 m c)

/-- What the calls leave, as the generated conditional frame reads it. -/
def outs : Outs (F := F) := fun J r c => match J with
  | 1 => W1 m c r
  | 3 => W3 m c r
  | 5 => W5 m c r
  | _ => W0 m c r

theorem V1_eq (c : Dev nD) : V1 m (outs m) c = W1 m c := by
  show Function.update (V0 m c) main_v0 (W1 m c main_v0) = W1 m c
  unfold W1; rw [Function.update_self]
theorem V2_eq (c : Dev nD) : V2 m (outs m) c = W2 m c := congrArg (StableHlo.after hostOps1) (V1_eq m c)
theorem V3_eq (c : Dev nD) : V3 m (outs m) c = W3 m c := by
  show Function.update (V2 m (outs m) c) main_v3 (W3 m c main_v3) = W3 m c
  rw [V2_eq]; unfold W3; rw [Function.update_self]
theorem V4_eq (c : Dev nD) : V4 m (outs m) c = W4 m c := congrArg (StableHlo.after hostOps2) (V3_eq m c)
theorem V5_eq (c : Dev nD) : V5 m (outs m) c = W5 m c := by
  show Function.update (V4 m (outs m) c) main_v6 (W5 m c main_v6) = W5 m c
  rw [V4_eq]; unfold W5; rw [Function.update_self]
theorem V6_eq (c : Dev nD) : V6 m (outs m) c = W6 m c := congrArg (StableHlo.after hostOps3) (V5_eq m c)

/-! ## The proof data family and the calls as segments -/

/-- Every call's proof data, each at its entry contents: a literal match on the call's number. -/
def pdats : (p : Fin 3) → (c : Dev nD) → Dat τ (Elt F) Unit ℕ (UR sig nD τ) ℕ (cfgs p) c
  | ⟨0, _⟩ => fun c => dat0 (T0 m) fullShare.left fullShare.right c
  | ⟨1, _⟩ => fun c => dat1 (T2 m) fullShare.left fullShare.right c
  | ⟨2, _⟩ => fun c => dat2 (T4 m) fullShare fullShare c

set_option backward.isDefEq.respectTransparency.types false in
/-- Call 0 as a segment: entered from every unscoped buffer at `W0`, left with them at `W1`. Its arrays are sorted
    out of the unscoped buffers at entry and put back at exit; the generator register goes into the body's invariant
    and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (T0 m) fullShare.left fullShare.right c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (T0 m c)
  hentry c := by
    rw [Pipeline.ownSems0_none]
    have hsplit := entry0 (T0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (T0 m) c (fun b => W1 m c b) (by unfold W1; exact Function.update_self ..)
      (fun b hb => by unfold W1; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 1 as a segment: entered from every unscoped buffer at `W2`, left with them at `W3`. Its arrays are sorted
    out of the unscoped buffers at entry and put back at exit; the generator register goes into the body's invariant
    and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (T2 m) fullShare.left fullShare.right c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := entry1 (T2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (T2 m) c (fun b => W3 m c b) (by unfold W3; exact Function.update_self ..)
      (fun b hb => by unfold W3; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Call 2 as a segment: entered from every unscoped buffer at `W4`, left with them at `W5`. Its arrays are sorted
    out of the unscoped buffers at entry and put back at exit; the generator register goes into the body's invariant
    and comes back; nothing is owed; the kernel has no semaphore of its own. -/
def reg2 : Pipeline.RegionSeg (pcfgs (F := F)) adm (pdats m) () defs₀ 𝒱₀ L lv 2 where
  win := winFacts2.to₀
  block_pos := block_pos2
  stage_whole := stage_whole2
  K := PEmpty
  osem k := k.elim
  ho := Pipeline.OwnSemFacts.none _
  hbody c := (body_obligation2 (T4 m) fullShare fullShare c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := entry2 (T4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (T4 m) c (fun b => W5 m c b) (by unfold W5; exact Function.update_self ..)
      (fun b hb => by unfold W5; exact Function.update_of_ne (StableHlo.devRef_ne_of_ne hb) ..)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

variable (ρ : Dev nD → PrngReg)

/-- The launch element is the pipeline library's own, and leaves no other ghost resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals makes the riding state on every core. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main terminates, nothing faulting, and the argument arrays end as
    launched — the generated conditional frame at the three calls' segments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)

end Cert.KernelIdeal.Hand

end
-- ==== Proof.KI.ValueRun.lean ====
/-
  The run of @main read at the result buffer: the launch of the frame again, through the conditional frame restated
  with the result in its post, at the same three segments. Every weakly fair execution terminates with the result
  buffer at the last valuation's entry there and the arguments as launched.
-/
import proofs.«179489_j87875030876301_1_alg».proof.Proof.KI.Run
import proofs.«179489_j87875030876301_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: the result buffer ends at the last valuation's contents, the argument arrays as launched. -/
theorem run : θ_run defs (onTc (τ := τ) (main (F := F))) ⟨m, fun _ => 0, ρ⟩ (fun r => ∀ c : Dev nD,
      r.2.mem ((c.tc : Thread nD τ).loc main_v14) = V6 m (outs m) c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.KernelIdeal.GenP.run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj)) (hu₀ := hu₀)
    (E := fun _ c => R c) (hE0 := hE0 ρ) (hE3 := fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)

end Cert.KernelIdeal.Hand

end
-- ==== Proof.Spec.lean ====
/-
  The quantity both programs compute: the kernel-mean-embedding distance of two samples `x, y` of 8192 points in
  512 dimensions under the Gaussian kernel `k(u, v) = exp (-(1/2) · max (|u|² + |v|² - 2 ⟨u, v⟩) 0)`:

      mmd x y = S(x, x) / N + S(y, y) / N - 2 · (S(x, y) / N),      S(a, b) = ∑ over all pairs (R, C) of k(a_R, b_C),

  with `N = 2^26` the number of pairs. Everything is over the extended reals, each float literal the exact value of
  its word. The reference sums all pairs at once; the kernel walks the 16 × 16 tiles of 512 × 512 pairs in row-major
  order and adds each tile's sum to a running total that starts at zero (`run`). The two agree because a finite sum
  over pairs may be grouped by tiles (`run_total`, proved in the laws module).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A sample: 8192 points of 512 coordinates. -/
abbrev Arr : Type := (⟨2, ![8192, 512]⟩ : Shape).Idx → EReal
/-- A tile of 512 points. -/
abbrev Blk : Type := (⟨2, ![512, 512]⟩ : Shape).Idx → EReal

/-- The literal 2. -/
def w2 : EReal := Ideal.ofBits .f32 0x40000000#32
/-- The literal -1/2. -/
def wNegHalf : EReal := Ideal.ofBits .f32 0xBF000000#32
/-- The literal 2^26, the number of pairs. -/
def wN : EReal := Ideal.ofBits .f32 0x4C800000#32

/-- A point's squared length. -/
def sqRow (f : Fin 512 → EReal) : EReal := ∑ k : Fin 512, f k * f k
/-- Two points' inner product. -/
def ipRow (f g : Fin 512 → EReal) : EReal := ∑ k : Fin 512, f k * g k
/-- The Gaussian kernel of two points, through the clamped squared distance. -/
def gkRow (f g : Fin 512 → EReal) : EReal :=
  Ideal.exp (wNegHalf * max ((sqRow f + sqRow g) - w2 * ipRow f g) 0)

/-- Point `R` of a sample. -/
def row (a : Arr) (R : Fin 8192) : Fin 512 → EReal := fun k => a (ix2 R k)
/-- The kernel of point `R` of `a` and point `C` of `b`. -/
def gk (a b : Arr) (R C : Fin 8192) : EReal := gkRow (row a R) (row b C)
/-- The sum over all pairs. -/
def total (a b : Arr) : EReal := ∑ j : (⟨2, ![8192, 8192]⟩ : Shape).Idx, gk a b (j 0) (j 1)
/-- The distance estimate. -/
def mmd (x y : Arr) : EReal :=
  (Ideal.div (total x x) wN + Ideal.div (total y y) wN) - w2 * Ideal.div (total x y) wN

/-- The sum of the kernel over the pairs of two tiles. -/
def blockPart (x0 x1 : Blk) : EReal :=
  ∑ r : Fin 512, ∑ c : Fin 512, gkRow (fun k => x0 (ix2 r k)) (fun k => x1 (ix2 c k))

/-- Point `r` of tile `i`. -/
def brow (i : Fin 16) (r : Fin 512) : Fin 8192 := ⟨i.val * 512 + r.val, by omega⟩
/-- Tile `i` of a sample. -/
def blk (a : Arr) (i : Fin 16) : Blk := fun y => a (ix2 (brow i (y 0)) (y 1))
/-- Tile pair number `n` in row-major order contributes the sum over tile `n / 16` of `a` and tile `n % 16` of `b`. -/
def part (a b : Arr) (n : ℕ) : EReal :=
  blockPart (blk a ⟨n / 16 % 16, Nat.mod_lt _ (by decide)⟩) (blk b ⟨n % 16, Nat.mod_lt _ (by decide)⟩)
/-- The running total after tile pairs `0 … n`, from zero. -/
def run (a b : Arr) : ℕ → EReal
  | 0 => 0 + part a b 0
  | n + 1 => run a b n + part a b (n + 1)

end Cert.Spec

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.Payload.lean ====
/-
  What one grid point adds: the kernel body's stored value, read at an entry of the 1 × 128 accumulator block, is the
  block's previous entry plus the sum of the Gaussian kernel over the pairs of the two loaded tiles; the reset value is zero.
-/
import proofs.«179489_j87875030876301_1_alg».proof.Proof.Spec
import proofs.«179489_j87875030876301_1_alg».proof.Proof.LibContraction
import proofs.«179489_j87875030876301_1_alg».proof.Proof.Gen.KernelIdeal.Skeleton
import Idealize.ShloMosaic.Lib.Pipeline.Value
import Idealize.ShloMosaic.Lib.ValueLayout

noncomputable section

open scoped BigOperators

namespace Cert.KernelIdeal.Payload

open Idealize.ShloMosaic Idealize.ShloMosaic.ValueIdx Cert.KernelIdeal Cert.KernelIdeal.Gen

/-! ## Layout steps at literal coordinates -/

section Layout
variable {α : Type}

/-- A vector of `a` entries viewed as a column reads, at row `r`, the vector's entry `r`. -/
private theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column broadcast along the rows reads, at `(r, c)`, the column's entry `r`. -/
private theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## The two lane sums -/

/-- The sum along the rows of a tile, kept as a column: at row `r` the sum of that row's entries. -/
private theorem rowSum_apply (src : FVec Ideal S512x512 .f32) (h : S512x512.Reduces [1] S512) (hφ : FKind.Formats .f32)
    (hacc : (0x00000000#32 : BitVec FTy.f32.bits) = FKind.add.neutral .f32 hφ) (hc : S512.ShapeCasts S512x1)
    (r : Fin 512) (u : Fin 1) :
    shapeCast S512x1 (multiReduction (F := Ideal) .add [1] S512 src 0x00000000#32 h hφ hacc) hc (ix2 r u)
      = ∑ k : Fin 512, src (ix2 r k) := by
  refine (shapeCast_a_a1_apply _ hc r u).trans ?_
  refine (Ideal.multiReduction_add_single src 0x00000000#32 h hφ hacc (ix1 r)).trans ?_
  refine Finset.sum_congr rfl fun k _ => congrArg src ?_
  funext c
  match c with
  | ⟨0, _⟩ => exact Fin.ext rfl
  | ⟨1, _⟩ => exact Fin.ext rfl

/-- The sum down a column: the sum of its entries. -/
private theorem colSum_apply (src : FVec Ideal S512x1 .f32) (h : S512x1.Reduces [0] S1) (hφ : FKind.Formats .f32)
    (hacc : (0x00000000#32 : BitVec FTy.f32.bits) = FKind.add.neutral .f32 hφ) (u : Fin 1) :
    multiReduction (F := Ideal) .add [0] S1 src 0x00000000#32 h hφ hacc (ix1 u)
      = ∑ r : Fin 512, src (ix2 r (0 : Fin 1)) := by
  refine (Ideal.multiReduction_add_single src 0x00000000#32 h hφ hacc (ix1 u)).trans ?_
  refine Finset.sum_congr rfl fun r _ => congrArg src ?_
  funext c
  match c with
  | ⟨0, _⟩ => exact Fin.ext rfl
  | ⟨1, _⟩ => exact Fin.ext (by have := u.isLt; show u.val = 0; omega)

/-! ## The tile product -/

/-- The product's dimension numbers: one contracted axis (the left operand's columns, the right operand's rows). -/
private abbrev D := dot_S512x512_S512x512_S512x512_1_0_0_1_n_n

/-- The left operand is read at the result's row … -/
private theorem lhs_axis0 (r c : Fin 512) (q : D.contr.Idx) : (D.lhsIdx (ix2 r c) q 0).val = r.val :=
  Cert.Lib.Contraction.lhs_free D rfl rfl (ix2 r c) q (by decide)
/-- … and at the contraction's position. -/
private theorem lhs_axis1 (r c : Fin 512) (i : Fin 512) :
    (D.lhsIdx (ix2 r c) ((Cert.Lib.Contraction.contrFin D rfl 512 rfl).symm i) 1).val = i.val :=
  Cert.Lib.Contraction.lhs_contracted D rfl 512 rfl (ix2 r c) i
/-- The right operand is read at the contraction's position … -/
private theorem rhs_axis0 (r c : Fin 512) (i : Fin 512) :
    (D.rhsIdx (ix2 r c) ((Cert.Lib.Contraction.contrFin D rfl 512 rfl).symm i) 0).val = i.val :=
  Cert.Lib.Contraction.rhs_contracted D rfl rfl 512 rfl (ix2 r c) i
/-- … and at the result's column. -/
private theorem rhs_axis1 (r c : Fin 512) (q : D.contr.Idx) : (D.rhsIdx (ix2 r c) q 1).val = c.val :=
  Cert.Lib.Contraction.rhs_free D rfl rfl rfl rfl (ix2 r c) q (by decide)

/-- The product of the first tile with the second tile transposed, from zero: at `(r, c)` the inner product of row `r` of
    the first with row `c` of the second. -/
private theorem prod_apply (x0 x1 : FVec Ideal S512x512 .f32) (ht : S512x512.Transposes [1, 0] S512x512)
    (prec : Option ContractPrecision) (r c : Fin 512) :
    matmul D prec x0 (transpose S512x512 [1, 0] x1 ht) (constant (F := Ideal) S512x512 .f32 0x00000000#32) (ix2 r c)
      = Cert.Spec.ipRow (fun k => x0 (ix2 r k)) (fun k => x1 (ix2 c k)) := by
  refine (Ideal.matmul_constant_zero_apply D prec x0 _ (ix2 r c)).trans ?_
  refine (Cert.Lib.Contraction.sum_contr D rfl 512 rfl _).trans ?_
  unfold Cert.Spec.ipRow
  refine Finset.sum_congr rfl fun i _ => ?_
  have el : D.lhsIdx (ix2 r c) ((Cert.Lib.Contraction.contrFin D rfl 512 rfl).symm i) = ix2 r i :=
    funext fun a => Fin.ext (by
      match a with
      | ⟨0, _⟩ => exact lhs_axis0 r c _
      | ⟨1, _⟩ => exact lhs_axis1 r c i)
  have er : D.rhsIdx (ix2 r c) ((Cert.Lib.Contraction.contrFin D rfl 512 rfl).symm i) = ix2 i c :=
    funext fun a => Fin.ext (by
      match a with
      | ⟨0, _⟩ => exact rhs_axis0 r c i
      | ⟨1, _⟩ => exact rhs_axis1 r c _)
  rw [el, er]
  exact congrArg (x0 (ix2 r i) * ·) (transpose_ix2_apply x1 ht i c)

/-! ## One entry of the kernel matrix -/

/-- The pointwise chain after the three reductions: at `(r, c)`, from the squared length of row `r` (a column), the
    squared length of row `c` (a row) and the inner product, the Gaussian kernel through the clamped squared distance. -/
private theorem entry_apply (a2 : FVec Ideal S512x1 .f32) (b2T : FVec Ideal S1x512 .f32) (ab : FVec Ideal S512x512 .f32)
    (hb1 : S512x1.Broadcasts S512x512) (hb2 : S1x512.Broadcasts S512x512) (r c : Fin 512) (sa sb ip : EReal)
    (ha : a2 (ix2 r (0 : Fin 1)) = sa) (hb : b2T (ix2 (0 : Fin 1) c) = sb) (hab : ab (ix2 r c) = ip) :
    exp (mulf (broadcast S512x512 (Scalar.ofBits (F := Ideal) .f32 0xBF000000#32))
        (maximumf (subf (addf (broadcastTo S512x512 a2 hb1) (broadcastTo S512x512 b2T hb2))
            (mulf (broadcast S512x512 (Scalar.ofBits (F := Ideal) .f32 0x40000000#32)) ab))
          (broadcast S512x512 (Scalar.ofBits (F := Ideal) .f32 0x00000000#32)))) (ix2 r c)
      = Ideal.exp (Cert.Spec.wNegHalf * max ((sa + sb) - Cert.Spec.w2 * ip) 0) := by
  show Ideal.exp (Ideal.ofBits .f32 0xBF000000#32
      * max ((broadcastTo S512x512 a2 hb1 (ix2 r c) + broadcastTo S512x512 b2T hb2 (ix2 r c))
          - Ideal.ofBits .f32 0x40000000#32 * ab (ix2 r c)) (Ideal.ofBits .f32 0x00000000#32)) = _
  rw [broadcastTo_a1_ab_apply a2 hb1 r c, broadcastTo_1b_ab_apply b2T hb2 r c, ha, hb, hab, Ideal.ofBits_zero_f32]
  rfl

/-! ## The two payloads -/

/-- The reset value is zero at every entry. -/
theorem pay1_apply (j : S1x128.Idx) : k0_pay1 (F := Ideal) j = 0 :=
  Ideal.ofBits_zero_f32

/-- The stored value at an entry: the previous entry plus the tiles' kernel sum. -/
theorem pay2_apply (x0 x1 : Vec Ideal S512x512 .f32) (prev : Vec Ideal S1x128 .f32) (j : S1x128.Idx) :
    k0_pay2 (F := Ideal) x0 x1 prev j = prev j + Cert.Spec.blockPart x0 x1 := by
  obtain ⟨p, q, rfl⟩ : ∃ (p : Fin 1) (q : Fin 128), j = ix2 p q := ⟨j 0, j 1, eq_ix2 j⟩
  unfold k0_pay2
  refine (addf_apply _ _ (ix2 p q)).trans ?_
  refine congrArg₂ (· + ·) (congrFun (shapeCast_self prev _) (ix2 p q)) ?_
  -- the one total, broadcast along the lanes
  refine (broadcastTo_a1_ab_apply _ _ p q).trans ?_
  refine (congrFun (shapeCast_self _ _) (ix2 p (0 : Fin 1))).trans ?_
  refine (shapeCast_a_1a_apply _ _ p (0 : Fin 1)).trans ?_
  -- the sum over the rows of the row sums
  refine (colSum_apply _ _ _ _ (0 : Fin 1)).trans ?_
  unfold Cert.Spec.blockPart
  refine Finset.sum_congr rfl fun r _ => ?_
  refine (rowSum_apply _ _ _ _ _ r (0 : Fin 1)).trans ?_
  refine Finset.sum_congr rfl fun c _ => ?_
  -- one entry of the kernel matrix
  exact entry_apply _ _ _ _ _ r c _ _ _
    (rowSum_apply _ _ _ _ _ r (0 : Fin 1))
    ((transpose_ix2_apply _ _ (0 : Fin 1) c).trans (rowSum_apply _ _ _ _ _ c (0 : Fin 1)))
    (prod_apply x0 x1 _ _ r c)

/-- The three calls run one body: their payloads are one function. -/
theorem k1_pay1_eq : k1_pay1 (F := Ideal) = k0_pay1 (F := Ideal) := rfl
theorem k2_pay1_eq : k2_pay1 (F := Ideal) = k0_pay1 (F := Ideal) := rfl
theorem k1_pay2_eq : k1_pay2 (F := Ideal) = k0_pay2 (F := Ideal) := rfl
theorem k2_pay2_eq : k2_pay2 (F := Ideal) = k0_pay2 (F := Ideal) := rfl

end Cert.KernelIdeal.Payload

end
-- ==== Proof.KI.Val0.lean ====
/-
  This call's value at the ideal instance. The body's two control cases leave in the accumulator block the stored
  payload over the zero block (first point) or over what the point before left (later points); read at an entry, the
  payload is the previous entry plus the two tiles' kernel sum, and the tiles are tiles `t / 16` and `t % 16` of the two
  input arrays. So after point `n` every entry of the accumulator block holds the running total over tile pairs
  `0 … n`, and the output array, written back once after the last point, holds the total over all 256 tile pairs.
-/
import proofs.«179489_j87875030876301_1_alg».proof.Proof.KI.Dat0
import proofs.«179489_j87875030876301_1_alg».proof.Proof.Payload
import proofs.«179489_j87875030876301_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz0 : (![0, 0] : Fin 2 → Nat) = fun _ => 0 := funext fun a => by fin_cases a <;> rfl

/-- The reset case leaves the stored payload over the zero block. -/
theorem out0_A_eq (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond0 i) (x0 x1 : Vec F S512x512 .f32) :
    out0_A (F := F) c i arg2 harg2 arg3 harg3 arg4 harg4 hc0 x0 x1 = k0_pay2 x0 x1 (k0_pay1 (F := F)) := by
  unfold out0_A
  rw [View.read_writes_eq_canon _ _ _ (cover0_A c i arg2 harg2 arg3 harg3 arg4 harg4 hc0 x0 x1)]
  unfold kernelRun0_A
  dsimp only
  sl_unfold_words
  rw [View.canon_cons_unit_zero (S := S1x128) hz0, View.readCov_unit_zero (S := S1x128) _ hz0]
  simp only [View.readAt_eq_ld, harg2.read_unread, harg3.read_unread, View.ld_unit_zero (S := S512x512) hz0]

/-- The accumulating case leaves the stored payload over what the block held. -/
theorem out0_B_eq (c : Dev nD) (i : grid0.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond0 i) (x0 x1 : Vec F S512x512 .f32) (xo : Vec F S1x128 .f32) :
    out0_B (F := F) c i arg2 harg2 arg3 harg3 arg4 harg4 hc0 x0 x1 xo = k0_pay2 x0 x1 xo := by
  unfold out0_B
  rw [View.read_writes_eq_canon _ _ _ (cover0_B c i arg2 harg2 arg3 harg3 arg4 harg4 hc0 x0 x1 xo)]
  unfold kernelRun0_B
  dsimp only
  sl_unfold_words
  rw [View.canon_unit_zero (S := S1x128) hz0]
  simp only [View.readAt_eq_ld, harg2.read_unread, harg3.read_unread, harg4.read_unread, View.ld_unit_zero (S := S512x512) hz0, View.ld_unit_zero (S := S1x128) hz0]

section Region

variable (V : (c : Dev nD) → (b : Ref sig .tc) → Buf (Elt Ideal) ((c : Thread nD τ).loc b)) (q0 q1 : PosShare TreeShare)

/-- The stored payload at an entry, and the reset value, as the payload lemmas state them. -/
theorem payAdd0 (x0 x1 : Vec Ideal S512x512 .f32) (prev : Vec Ideal S1x128 .f32) (j : S1x128.Idx) :
    k0_pay2 (F := Ideal) x0 x1 prev j = prev j + Cert.Spec.blockPart x0 x1 := Cert.KernelIdeal.Payload.pay2_apply x0 x1 prev j
theorem payZero0 (j : S1x128.Idx) : k0_pay1 (F := Ideal) j = 0 := Cert.KernelIdeal.Payload.pay1_apply j

/-- The printed index maps, decided over the grid: window 0's tile is tile `t / 16`, window 1's tile `t % 16`, and the
    output window stays on its one block. -/
theorem idx_facts0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = 0 :=
  (by decide +kernel : ∀ t : Fin grid0.N, _)

/-- Window 0's tile at point `t` is tile `t / 16` of its array. -/
theorem iblk0_0_eq (c : Dev nD) (t : Fin cfg0.N) :
    (iblk0 V c 0 t : Vec Ideal S512x512 .f32) = Cert.Spec.blk (V c (Pipeline.arrRef spec0 0)) ⟨t.val / 16 % 16, Nat.mod_lt _ (by decide)⟩ := by
  obtain ⟨e0, e1, -, -, -, -⟩ := idx_facts0 t
  have hN : t.val < 256 := lt_of_lt_of_eq t.isLt (show cfg0.N = 256 from N_0)
  funext y
  show V c (Pipeline.arrRef spec0 0) (((cfg0.win 0).blk t).view.emb y)
    = V c (Pipeline.arrRef spec0 0) (ix2 (Cert.Spec.brow ⟨t.val / 16 % 16, Nat.mod_lt _ (by decide)⟩ (y 0)) (y 1))
  refine congrArg _ (funext fun a => Fin.ext ?_)
  match a with
  | ⟨0, _⟩ => show win0_0.index t (0 : Fin 2) * 512 + 1 * (y 0).val = t.val / 16 % 16 * 512 + (y 0).val; omega
  | ⟨1, _⟩ => show win0_0.index t (1 : Fin 2) * 512 + 1 * (y 1).val = (y 1).val; omega

/-- Window 1's tile at point `t` is tile `t % 16` of its array. -/
theorem iblk0_1_eq (c : Dev nD) (t : Fin cfg0.N) :
    (iblk0 V c 1 t : Vec Ideal S512x512 .f32) = Cert.Spec.blk (V c (Pipeline.arrRef spec0 1)) ⟨t.val % 16, Nat.mod_lt _ (by decide)⟩ := by
  obtain ⟨-, -, e2, e3, -, -⟩ := idx_facts0 t
  funext y
  show V c (Pipeline.arrRef spec0 1) (((cfg0.win 1).blk t).view.emb y)
    = V c (Pipeline.arrRef spec0 1) (ix2 (Cert.Spec.brow ⟨t.val % 16, Nat.mod_lt _ (by decide)⟩ (y 0)) (y 1))
  refine congrArg _ (funext fun a => Fin.ext ?_)
  match a with
  | ⟨0, _⟩ => show win0_1.index t (0 : Fin 2) * 512 + 1 * (y 0).val = t.val % 16 * 512 + (y 0).val; omega
  | ⟨1, _⟩ => show win0_1.index t (1 : Fin 2) * 512 + 1 * (y 1).val = (y 1).val; omega

/-- After point `n` every entry of the accumulator block holds the running total over tile pairs `0 … n`. -/
theorem acc_entry0 (c : Dev nD) : ∀ (n : ℕ) (hn : n < cfg0.N) (j : S1x128.Idx),
    outsAt0 (F := Ideal) V c n hn j = Cert.Spec.run (V c (Pipeline.arrRef spec0 0)) (V c (Pipeline.arrRef spec0 1)) n := by
  intro n
  induction n with
  | zero =>
    intro hn j
    show out0_A c _ _ _ _ _ _ _ _ (iblk0 V c 0 ⟨0, hn⟩) (iblk0 V c 1 ⟨0, hn⟩) j = _
    rw [out0_A_eq, payAdd0, payZero0, iblk0_0_eq, iblk0_1_eq]
    rfl
  | succ n ih =>
    intro hn j
    show out0_B c _ _ _ _ _ _ _ _ (iblk0 V c 0 ⟨n + 1, hn⟩) (iblk0 V c 1 ⟨n + 1, hn⟩) (outsAt0 V c n (Nat.lt_of_succ_lt hn)) j = _
    rw [out0_B_eq, payAdd0, ih, iblk0_0_eq, iblk0_1_eq]
    rfl

/-- THE OUTPUT ARRAY after the call: its first entry is the running total over all 256 tile pairs of the two input
    windows' arrays. The array is one block, written back once, after the last point. -/
theorem out_entry0 (c : Dev nD) :
    (dat0 (F := Ideal) V q0 q1 c).arrAt 2 cfg0.N (ix2 0 0)
      = Cert.Spec.run (V c (Pipeline.arrRef spec0 0)) (V c (Pipeline.arrRef spec0 1)) 255 := by
  have hlast : (255 : ℕ) < cfg0.N := by rw [show cfg0.N = 256 from N_0]; decide
  have hfin : (dat0 (F := Ideal) V q0 q1 c).arrAt 2 cfg0.N = outsAt0 V c 255 hlast := by
    refine (dat0 (F := Ideal) V q0 q1 c).arrAt_eq_of_cover 2 (outsAt0 V c 255 hlast) (fun t hf => ?_) (fun i => ?_)
    · have hN : t.val < 256 := lt_of_lt_of_eq t.isLt (show cfg0.N = 256 from N_0)
      have ht : t.val = 255 := by have := (flush0_2 t).mp hf; omega
      obtain ⟨-, -, -, -, e4, e5⟩ := idx_facts0 t
      show (cfg0.win 2).cut (grid0.coords t) ((dat0 V q0 q1 c).after 2 t) = _
      rw [after0_2]
      funext j
      show outsAt0 V c t.val t.isLt j = outsAt0 V c 255 hlast (((cfg0.win 2).blk t).view.emb j)
      rw [acc_entry0, acc_entry0, ht]
    · refine ⟨⟨255, hlast⟩, (flush0_2 _).mpr rfl, ?_⟩
      obtain ⟨-, -, -, -, e4, e5⟩ := idx_facts0 ⟨255, hlast⟩
      show i ∈ ((View.whole main_v0).slice (win0_2.rect ⟨255, hlast⟩)).set
      rw [View.set_slice_whole, Rect.mem_set_unit]
      intro a
      match a with
      | ⟨0, _⟩ => show win0_2.index ⟨255, hlast⟩ (0 : Fin 2) * 1 ≤ (i 0).val ∧ (i 0).val < win0_2.index ⟨255, hlast⟩ (0 : Fin 2) * 1 + 1; have hi : (i 0).val < 1 := (i 0).isLt; omega
      | ⟨1, _⟩ => show win0_2.index ⟨255, hlast⟩ (1 : Fin 2) * 128 ≤ (i 1).val ∧ (i 1).val < win0_2.index ⟨255, hlast⟩ (1 : Fin 2) * 128 + 128; have hi : (i 1).val < 128 := (i 1).isLt; omega
  rw [hfin]
  exact acc_entry0 V c 255 hlast _

end Region

end Cert.KernelIdeal.Hand

end
-- ==== Proof.KI.Val1.lean ====
/-
  This call's value at the ideal instance. The body's two control cases leave in the accumulator block the stored
  payload over the zero block (first point) or over what the point before left (later points); read at an entry, the
  payload is the previous entry plus the two tiles' kernel sum, and the tiles are tiles `t / 16` and `t % 16` of the two
  input arrays. So after point `n` every entry of the accumulator block holds the running total over tile pairs
  `0 … n`, and the output array, written back once after the last point, holds the total over all 256 tile pairs.
-/
import proofs.«179489_j87875030876301_1_alg».proof.Proof.KI.Dat1
import proofs.«179489_j87875030876301_1_alg».proof.Proof.Payload
import proofs.«179489_j87875030876301_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz1 : (![0, 0] : Fin 2 → Nat) = fun _ => 0 := funext fun a => by fin_cases a <;> rfl

/-- The reset case leaves the stored payload over the zero block. -/
theorem out1_A_eq (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond1 i) (x0 x1 : Vec F S512x512 .f32) :
    out1_A (F := F) c i arg2 harg2 arg3 harg3 arg4 harg4 hc0 x0 x1 = k1_pay2 x0 x1 (k1_pay1 (F := F)) := by
  unfold out1_A
  rw [View.read_writes_eq_canon _ _ _ (cover1_A c i arg2 harg2 arg3 harg3 arg4 harg4 hc0 x0 x1)]
  unfold kernelRun1_A
  dsimp only
  sl_unfold_words
  rw [View.canon_cons_unit_zero (S := S1x128) hz1, View.readCov_unit_zero (S := S1x128) _ hz1]
  simp only [View.readAt_eq_ld, harg2.read_unread, harg3.read_unread, View.ld_unit_zero (S := S512x512) hz1]

/-- The accumulating case leaves the stored payload over what the block held. -/
theorem out1_B_eq (c : Dev nD) (i : grid1.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond1 i) (x0 x1 : Vec F S512x512 .f32) (xo : Vec F S1x128 .f32) :
    out1_B (F := F) c i arg2 harg2 arg3 harg3 arg4 harg4 hc0 x0 x1 xo = k1_pay2 x0 x1 xo := by
  unfold out1_B
  rw [View.read_writes_eq_canon _ _ _ (cover1_B c i arg2 harg2 arg3 harg3 arg4 harg4 hc0 x0 x1 xo)]
  unfold kernelRun1_B
  dsimp only
  sl_unfold_words
  rw [View.canon_unit_zero (S := S1x128) hz1]
  simp only [View.readAt_eq_ld, harg2.read_unread, harg3.read_unread, harg4.read_unread, View.ld_unit_zero (S := S512x512) hz1, View.ld_unit_zero (S := S1x128) hz1]

section Region

variable (V : (c : Dev nD) → (b : Ref sig .tc) → Buf (Elt Ideal) ((c : Thread nD τ).loc b)) (q0 q1 : PosShare TreeShare)

/-- The stored payload at an entry, and the reset value, as the payload lemmas state them. -/
theorem payAdd1 (x0 x1 : Vec Ideal S512x512 .f32) (prev : Vec Ideal S1x128 .f32) (j : S1x128.Idx) :
    k1_pay2 (F := Ideal) x0 x1 prev j = prev j + Cert.Spec.blockPart x0 x1 := Cert.KernelIdeal.Payload.pay2_apply x0 x1 prev j
theorem payZero1 (j : S1x128.Idx) : k1_pay1 (F := Ideal) j = 0 := Cert.KernelIdeal.Payload.pay1_apply j

/-- The printed index maps, decided over the grid: window 0's tile is tile `t / 16`, window 1's tile `t % 16`, and the
    output window stays on its one block. -/
theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = 0 ∧ win1_2.index t (1 : Fin 2) = 0 :=
  (by decide +kernel : ∀ t : Fin grid1.N, _)

/-- Window 0's tile at point `t` is tile `t / 16` of its array. -/
theorem iblk1_0_eq (c : Dev nD) (t : Fin cfg1.N) :
    (iblk1 V c 0 t : Vec Ideal S512x512 .f32) = Cert.Spec.blk (V c (Pipeline.arrRef spec1 0)) ⟨t.val / 16 % 16, Nat.mod_lt _ (by decide)⟩ := by
  obtain ⟨e0, e1, -, -, -, -⟩ := idx_facts1 t
  have hN : t.val < 256 := lt_of_lt_of_eq t.isLt (show cfg1.N = 256 from N_1)
  funext y
  show V c (Pipeline.arrRef spec1 0) (((cfg1.win 0).blk t).view.emb y)
    = V c (Pipeline.arrRef spec1 0) (ix2 (Cert.Spec.brow ⟨t.val / 16 % 16, Nat.mod_lt _ (by decide)⟩ (y 0)) (y 1))
  refine congrArg _ (funext fun a => Fin.ext ?_)
  match a with
  | ⟨0, _⟩ => show win1_0.index t (0 : Fin 2) * 512 + 1 * (y 0).val = t.val / 16 % 16 * 512 + (y 0).val; omega
  | ⟨1, _⟩ => show win1_0.index t (1 : Fin 2) * 512 + 1 * (y 1).val = (y 1).val; omega

/-- Window 1's tile at point `t` is tile `t % 16` of its array. -/
theorem iblk1_1_eq (c : Dev nD) (t : Fin cfg1.N) :
    (iblk1 V c 1 t : Vec Ideal S512x512 .f32) = Cert.Spec.blk (V c (Pipeline.arrRef spec1 1)) ⟨t.val % 16, Nat.mod_lt _ (by decide)⟩ := by
  obtain ⟨-, -, e2, e3, -, -⟩ := idx_facts1 t
  funext y
  show V c (Pipeline.arrRef spec1 1) (((cfg1.win 1).blk t).view.emb y)
    = V c (Pipeline.arrRef spec1 1) (ix2 (Cert.Spec.brow ⟨t.val % 16, Nat.mod_lt _ (by decide)⟩ (y 0)) (y 1))
  refine congrArg _ (funext fun a => Fin.ext ?_)
  match a with
  | ⟨0, _⟩ => show win1_1.index t (0 : Fin 2) * 512 + 1 * (y 0).val = t.val % 16 * 512 + (y 0).val; omega
  | ⟨1, _⟩ => show win1_1.index t (1 : Fin 2) * 512 + 1 * (y 1).val = (y 1).val; omega

/-- After point `n` every entry of the accumulator block holds the running total over tile pairs `0 … n`. -/
theorem acc_entry1 (c : Dev nD) : ∀ (n : ℕ) (hn : n < cfg1.N) (j : S1x128.Idx),
    outsAt1 (F := Ideal) V c n hn j = Cert.Spec.run (V c (Pipeline.arrRef spec1 0)) (V c (Pipeline.arrRef spec1 1)) n := by
  intro n
  induction n with
  | zero =>
    intro hn j
    show out1_A c _ _ _ _ _ _ _ _ (iblk1 V c 0 ⟨0, hn⟩) (iblk1 V c 1 ⟨0, hn⟩) j = _
    rw [out1_A_eq, payAdd1, payZero1, iblk1_0_eq, iblk1_1_eq]
    rfl
  | succ n ih =>
    intro hn j
    show out1_B c _ _ _ _ _ _ _ _ (iblk1 V c 0 ⟨n + 1, hn⟩) (iblk1 V c 1 ⟨n + 1, hn⟩) (outsAt1 V c n (Nat.lt_of_succ_lt hn)) j = _
    rw [out1_B_eq, payAdd1, ih, iblk1_0_eq, iblk1_1_eq]
    rfl

/-- THE OUTPUT ARRAY after the call: its first entry is the running total over all 256 tile pairs of the two input
    windows' arrays. The array is one block, written back once, after the last point. -/
theorem out_entry1 (c : Dev nD) :
    (dat1 (F := Ideal) V q0 q1 c).arrAt 2 cfg1.N (ix2 0 0)
      = Cert.Spec.run (V c (Pipeline.arrRef spec1 0)) (V c (Pipeline.arrRef spec1 1)) 255 := by
  have hlast : (255 : ℕ) < cfg1.N := by rw [show cfg1.N = 256 from N_1]; decide
  have hfin : (dat1 (F := Ideal) V q0 q1 c).arrAt 2 cfg1.N = outsAt1 V c 255 hlast := by
    refine (dat1 (F := Ideal) V q0 q1 c).arrAt_eq_of_cover 2 (outsAt1 V c 255 hlast) (fun t hf => ?_) (fun i => ?_)
    · have hN : t.val < 256 := lt_of_lt_of_eq t.isLt (show cfg1.N = 256 from N_1)
      have ht : t.val = 255 := by have := (flush1_2 t).mp hf; omega
      obtain ⟨-, -, -, -, e4, e5⟩ := idx_facts1 t
      show (cfg1.win 2).cut (grid1.coords t) ((dat1 V q0 q1 c).after 2 t) = _
      rw [after1_2]
      funext j
      show outsAt1 V c t.val t.isLt j = outsAt1 V c 255 hlast (((cfg1.win 2).blk t).view.emb j)
      rw [acc_entry1, acc_entry1, ht]
    · refine ⟨⟨255, hlast⟩, (flush1_2 _).mpr rfl, ?_⟩
      obtain ⟨-, -, -, -, e4, e5⟩ := idx_facts1 ⟨255, hlast⟩
      show i ∈ ((View.whole main_v3).slice (win1_2.rect ⟨255, hlast⟩)).set
      rw [View.set_slice_whole, Rect.mem_set_unit]
      intro a
      match a with
      | ⟨0, _⟩ => show win1_2.index ⟨255, hlast⟩ (0 : Fin 2) * 1 ≤ (i 0).val ∧ (i 0).val < win1_2.index ⟨255, hlast⟩ (0 : Fin 2) * 1 + 1; have hi : (i 0).val < 1 := (i 0).isLt; omega
      | ⟨1, _⟩ => show win1_2.index ⟨255, hlast⟩ (1 : Fin 2) * 128 ≤ (i 1).val ∧ (i 1).val < win1_2.index ⟨255, hlast⟩ (1 : Fin 2) * 128 + 128; have hi : (i 1).val < 128 := (i 1).isLt; omega
  rw [hfin]
  exact acc_entry1 V c 255 hlast _

end Region

end Cert.KernelIdeal.Hand

end
-- ==== Proof.KI.Val2.lean ====
/-
  This call's value at the ideal instance. The body's two control cases leave in the accumulator block the stored
  payload over the zero block (first point) or over what the point before left (later points); read at an entry, the
  payload is the previous entry plus the two tiles' kernel sum, and the tiles are tiles `t / 16` and `t % 16` of the two
  input arrays. So after point `n` every entry of the accumulator block holds the running total over tile pairs
  `0 … n`, and the output array, written back once after the last point, holds the total over all 256 tile pairs.
-/
import proofs.«179489_j87875030876301_1_alg».proof.Proof.KI.Dat2
import proofs.«179489_j87875030876301_1_alg».proof.Proof.Payload
import proofs.«179489_j87875030876301_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl

/-- The reset case leaves the stored payload over the zero block. -/
theorem out2_A_eq (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : cond2 i) (x0 x1 : Vec F S512x512 .f32) :
    out2_A (F := F) c i arg2 harg2 arg3 harg3 arg4 harg4 hc0 x0 x1 = k2_pay2 x0 x1 (k2_pay1 (F := F)) := by
  unfold out2_A
  rw [View.read_writes_eq_canon _ _ _ (cover2_A c i arg2 harg2 arg3 harg3 arg4 harg4 hc0 x0 x1)]
  unfold kernelRun2_A
  dsimp only
  sl_unfold_words
  rw [View.canon_cons_unit_zero (S := S1x128) hz2, View.readCov_unit_zero (S := S1x128) _ hz2]
  simp only [View.readAt_eq_ld, harg2.read_unread, harg3.read_unread, View.ld_unit_zero (S := S512x512) hz2]

/-- The accumulating case leaves the stored payload over what the block held. -/
theorem out2_B_eq (c : Dev nD) (i : grid2.Coords) (arg2 : Memref sig .tc .vmem S512x512 .f32) (harg2 : arg2.IsWhole) (arg3 : Memref sig .tc .vmem S512x512 .f32) (harg3 : arg3.IsWhole)
    (arg4 : Memref sig .tc .vmem S1x128 .f32) (harg4 : arg4.IsWhole) (hc0 : ¬cond2 i) (x0 x1 : Vec F S512x512 .f32) (xo : Vec F S1x128 .f32) :
    out2_B (F := F) c i arg2 harg2 arg3 harg3 arg4 harg4 hc0 x0 x1 xo = k2_pay2 x0 x1 xo := by
  unfold out2_B
  rw [View.read_writes_eq_canon _ _ _ (cover2_B c i arg2 harg2 arg3 harg3 arg4 harg4 hc0 x0 x1 xo)]
  unfold kernelRun2_B
  dsimp only
  sl_unfold_words
  rw [View.canon_unit_zero (S := S1x128) hz2]
  simp only [View.readAt_eq_ld, harg2.read_unread, harg3.read_unread, harg4.read_unread, View.ld_unit_zero (S := S512x512) hz2, View.ld_unit_zero (S := S1x128) hz2]

section Region

variable (V : (c : Dev nD) → (b : Ref sig .tc) → Buf (Elt Ideal) ((c : Thread nD τ).loc b)) (q0 q1 : PosShare TreeShare)

/-- The stored payload at an entry, and the reset value, as the payload lemmas state them. -/
theorem payAdd2 (x0 x1 : Vec Ideal S512x512 .f32) (prev : Vec Ideal S1x128 .f32) (j : S1x128.Idx) :
    k2_pay2 (F := Ideal) x0 x1 prev j = prev j + Cert.Spec.blockPart x0 x1 := Cert.KernelIdeal.Payload.pay2_apply x0 x1 prev j
theorem payZero2 (j : S1x128.Idx) : k2_pay1 (F := Ideal) j = 0 := Cert.KernelIdeal.Payload.pay1_apply j

/-- The printed index maps, decided over the grid: window 0's tile is tile `t / 16`, window 1's tile `t % 16`, and the
    output window stays on its one block. -/
theorem idx_facts2 : ∀ t : Fin cfg2.N, win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = 0 ∧ win2_2.index t (1 : Fin 2) = 0 :=
  (by decide +kernel : ∀ t : Fin grid2.N, _)

/-- Window 0's tile at point `t` is tile `t / 16` of its array. -/
theorem iblk2_0_eq (c : Dev nD) (t : Fin cfg2.N) :
    (iblk2 V c 0 t : Vec Ideal S512x512 .f32) = Cert.Spec.blk (V c (Pipeline.arrRef spec2 0)) ⟨t.val / 16 % 16, Nat.mod_lt _ (by decide)⟩ := by
  obtain ⟨e0, e1, -, -, -, -⟩ := idx_facts2 t
  have hN : t.val < 256 := lt_of_lt_of_eq t.isLt (show cfg2.N = 256 from N_2)
  funext y
  show V c (Pipeline.arrRef spec2 0) (((cfg2.win 0).blk t).view.emb y)
    = V c (Pipeline.arrRef spec2 0) (ix2 (Cert.Spec.brow ⟨t.val / 16 % 16, Nat.mod_lt _ (by decide)⟩ (y 0)) (y 1))
  refine congrArg _ (funext fun a => Fin.ext ?_)
  match a with
  | ⟨0, _⟩ => show win2_0.index t (0 : Fin 2) * 512 + 1 * (y 0).val = t.val / 16 % 16 * 512 + (y 0).val; omega
  | ⟨1, _⟩ => show win2_0.index t (1 : Fin 2) * 512 + 1 * (y 1).val = (y 1).val; omega

/-- Window 1's tile at point `t` is tile `t % 16` of its array. -/
theorem iblk2_1_eq (c : Dev nD) (t : Fin cfg2.N) :
    (iblk2 V c 1 t : Vec Ideal S512x512 .f32) = Cert.Spec.blk (V c (Pipeline.arrRef spec2 1)) ⟨t.val % 16, Nat.mod_lt _ (by decide)⟩ := by
  obtain ⟨-, -, e2, e3, -, -⟩ := idx_facts2 t
  funext y
  show V c (Pipeline.arrRef spec2 1) (((cfg2.win 1).blk t).view.emb y)
    = V c (Pipeline.arrRef spec2 1) (ix2 (Cert.Spec.brow ⟨t.val % 16, Nat.mod_lt _ (by decide)⟩ (y 0)) (y 1))
  refine congrArg _ (funext fun a => Fin.ext ?_)
  match a with
  | ⟨0, _⟩ => show win2_1.index t (0 : Fin 2) * 512 + 1 * (y 0).val = t.val % 16 * 512 + (y 0).val; omega
  | ⟨1, _⟩ => show win2_1.index t (1 : Fin 2) * 512 + 1 * (y 1).val = (y 1).val; omega

/-- After point `n` every entry of the accumulator block holds the running total over tile pairs `0 … n`. -/
theorem acc_entry2 (c : Dev nD) : ∀ (n : ℕ) (hn : n < cfg2.N) (j : S1x128.Idx),
    outsAt2 (F := Ideal) V c n hn j = Cert.Spec.run (V c (Pipeline.arrRef spec2 0)) (V c (Pipeline.arrRef spec2 1)) n := by
  intro n
  induction n with
  | zero =>
    intro hn j
    show out2_A c _ _ _ _ _ _ _ _ (iblk2 V c 0 ⟨0, hn⟩) (iblk2 V c 1 ⟨0, hn⟩) j = _
    rw [out2_A_eq, payAdd2, payZero2, iblk2_0_eq, iblk2_1_eq]
    rfl
  | succ n ih =>
    intro hn j
    show out2_B c _ _ _ _ _ _ _ _ (iblk2 V c 0 ⟨n + 1, hn⟩) (iblk2 V c 1 ⟨n + 1, hn⟩) (outsAt2 V c n (Nat.lt_of_succ_lt hn)) j = _
    rw [out2_B_eq, payAdd2, ih, iblk2_0_eq, iblk2_1_eq]
    rfl

/-- THE OUTPUT ARRAY after the call: its first entry is the running total over all 256 tile pairs of the two input
    windows' arrays. The array is one block, written back once, after the last point. -/
theorem out_entry2 (c : Dev nD) :
    (dat2 (F := Ideal) V q0 q1 c).arrAt 2 cfg2.N (ix2 0 0)
      = Cert.Spec.run (V c (Pipeline.arrRef spec2 0)) (V c (Pipeline.arrRef spec2 1)) 255 := by
  have hlast : (255 : ℕ) < cfg2.N := by rw [show cfg2.N = 256 from N_2]; decide
  have hfin : (dat2 (F := Ideal) V q0 q1 c).arrAt 2 cfg2.N = outsAt2 V c 255 hlast := by
    refine (dat2 (F := Ideal) V q0 q1 c).arrAt_eq_of_cover 2 (outsAt2 V c 255 hlast) (fun t hf => ?_) (fun i => ?_)
    · have hN : t.val < 256 := lt_of_lt_of_eq t.isLt (show cfg2.N = 256 from N_2)
      have ht : t.val = 255 := by have := (flush2_2 t).mp hf; omega
      obtain ⟨-, -, -, -, e4, e5⟩ := idx_facts2 t
      show (cfg2.win 2).cut (grid2.coords t) ((dat2 V q0 q1 c).after 2 t) = _
      rw [after2_2]
      funext j
      show outsAt2 V c t.val t.isLt j = outsAt2 V c 255 hlast (((cfg2.win 2).blk t).view.emb j)
      rw [acc_entry2, acc_entry2, ht]
    · refine ⟨⟨255, hlast⟩, (flush2_2 _).mpr rfl, ?_⟩
      obtain ⟨-, -, -, -, e4, e5⟩ := idx_facts2 ⟨255, hlast⟩
      show i ∈ ((View.whole main_v6).slice (win2_2.rect ⟨255, hlast⟩)).set
      rw [View.set_slice_whole, Rect.mem_set_unit]
      intro a
      match a with
      | ⟨0, _⟩ => show win2_2.index ⟨255, hlast⟩ (0 : Fin 2) * 1 ≤ (i 0).val ∧ (i 0).val < win2_2.index ⟨255, hlast⟩ (0 : Fin 2) * 1 + 1; have hi : (i 0).val < 1 := (i 0).isLt; omega
      | ⟨1, _⟩ => show win2_2.index ⟨255, hlast⟩ (1 : Fin 2) * 128 ≤ (i 1).val ∧ (i 1).val < win2_2.index ⟨255, hlast⟩ (1 : Fin 2) * 128 + 128; have hi : (i 1).val < 128 := (i 1).isLt; omega
  rw [hfin]
  exact acc_entry2 V c 255 hlast _

end Region

end Cert.KernelIdeal.Hand

end
-- ==== Proof.SpecLaws.lean ====
/-
  Grouping the sum over all pairs by tiles: the running total over the 256 tile pairs, taken in row-major order from
  zero, is the sum over all pairs.
-/
import proofs.«179489_j87875030876301_1_alg».proof.Proof.Spec
import Mathlib.Algebra.BigOperators.Fin
import Mathlib.Data.Fintype.BigOperators
import Mathlib.Logic.Equiv.Fin.Basic

noncomputable section

open scoped BigOperators

namespace Cert.Spec

open Idealize.ShloMosaic Idealize.ShloMosaic.ValueIdx

/-- The running total after tile pairs `0 … n` is the sum of their contributions. -/
private theorem run_eq_sum (a b : Arr) (n : ℕ) : run a b n = ∑ t ∈ Finset.range (n + 1), part a b t := by
  induction n with
  | zero => rw [Finset.sum_range_one]; exact zero_add _
  | succ n ih => rw [Finset.sum_range_succ _ (n + 1), ← ih]; rfl

/-- A sum over the 256 tile-pair numbers in row-major order is the double sum over the tile coordinates. -/
private theorem sum_tiles {M : Type*} [AddCommMonoid M] (g : Fin 16 → Fin 16 → M) :
    ∑ t ∈ Finset.range 256,
        g ⟨t / 16 % 16, Nat.mod_lt _ (by decide)⟩ ⟨t % 16, Nat.mod_lt _ (by decide)⟩
      = ∑ i : Fin 16, ∑ j : Fin 16, g i j := by
  rw [Finset.sum_range (fun t => g ⟨t / 16 % 16, Nat.mod_lt _ (by decide)⟩ ⟨t % 16, Nat.mod_lt _ (by decide)⟩),
    ← Equiv.sum_comp (finProdFinEquiv : Fin 16 × Fin 16 ≃ Fin 256), Fintype.sum_prod_type]
  refine Finset.sum_congr rfl fun i _ => Finset.sum_congr rfl fun j _ => ?_
  have hi : ((finProdFinEquiv (i, j) : Fin 256) : ℕ) / 16 % 16 = i := by
    have := i.isLt; have := j.isLt
    show (j.val + 16 * i.val) / 16 % 16 = i.val
    omega
  have hj : ((finProdFinEquiv (i, j) : Fin 256) : ℕ) % 16 = j := by
    have := i.isLt; have := j.isLt
    show (j.val + 16 * i.val) % 16 = j.val
    omega
  congr 1 <;> exact Fin.ext (by assumption)

/-- A sum over the 8192 points is the double sum over the tiles and the points of a tile. -/
private theorem sum_brow {M : Type*} [AddCommMonoid M] (f : Fin 8192 → M) :
    ∑ R : Fin 8192, f R = ∑ i : Fin 16, ∑ r : Fin 512, f (brow i r) := by
  rw [← Equiv.sum_comp (finProdFinEquiv : Fin 16 × Fin 512 ≃ Fin 8192), Fintype.sum_prod_type]
  refine Finset.sum_congr rfl fun i _ => Finset.sum_congr rfl fun r _ => ?_
  congr 1
  apply Fin.ext
  show r.val + 512 * i.val = i.val * 512 + r.val
  omega

/-- A tile pair's contribution is the sum of the kernel over the pairs of points of the two tiles. -/
private theorem blockPart_blk (a b : Arr) (i j : Fin 16) :
    blockPart (blk a i) (blk b j) = ∑ r : Fin 512, ∑ c : Fin 512, gk a b (brow i r) (brow j c) := rfl

/-- The sum over all pairs is the double sum over the two points. -/
private theorem total_eq (a b : Arr) : total a b = ∑ R : Fin 8192, ∑ C : Fin 8192, gk a b R C := by
  unfold total
  rw [sum_idx2]

/-- The running total after the last tile pair is the sum over all pairs. -/
theorem run_total (a b : Arr) : run a b 255 = total a b := by
  rw [run_eq_sum, total_eq]
  refine (sum_tiles (fun i j => blockPart (blk a i) (blk b j))).trans ?_
  rw [sum_brow]
  refine Finset.sum_congr rfl fun i _ => ?_
  symm
  calc ∑ r : Fin 512, ∑ C : Fin 8192, gk a b (brow i r) C
      = ∑ r : Fin 512, ∑ j : Fin 16, ∑ c : Fin 512, gk a b (brow i r) (brow j c) :=
        Finset.sum_congr rfl fun r _ => sum_brow _
    _ = ∑ j : Fin 16, ∑ r : Fin 512, ∑ c : Fin 512, gk a b (brow i r) (brow j c) := Finset.sum_comm
    _ = ∑ j : Fin 16, blockPart (blk a i) (blk b j) :=
        Finset.sum_congr rfl fun j _ => (blockPart_blk a b i j).symm

end Cert.Spec

end
-- ==== Proof.KI.Value.lean ====
/-
  The program's result. After each call the first entry of its output array is the total over all pairs of its two
  arguments; the host operations slice that entry out, divide each total by the number of pairs, and combine the
  three means: the distance estimate of the specification, of the two argument arrays as launched.
-/
import proofs.«179489_j87875030876301_1_alg».proof.Proof.KI.Run
import proofs.«179489_j87875030876301_1_alg».proof.Proof.KI.Val0
import proofs.«179489_j87875030876301_1_alg».proof.Proof.KI.Val1
import proofs.«179489_j87875030876301_1_alg».proof.Proof.KI.Val2
import proofs.«179489_j87875030876301_1_alg».proof.Proof.SpecLaws
import Idealize.ShloMosaic.Lib.StableHlo.Run
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-! ## Reading a block's first entry -/

/-- The one entry of the one-by-one slice at the origin of a block, reshaped to a scalar, is the block's first
    entry. -/
private theorem pick_apply (x : (⟨S1x128, .f32⟩ : BufTy).Contents (Elt Ideal)) (i : S_.Idx) :
    shapeCast S_ (extractStridedSlice S1x1 ![0, 0] x slices_S1x128_S1x1_0_0) shapeCasts_S1x1_S_ i = x (ix2 0 0) := by
  refine (shapeCast_apply _ shapeCasts_S1x1_S_ i (ix2 0 0) ?_).trans ?_
  · -- both shapes have one element, so both row-major positions are zero
    rw [Shape.rowMajor_val_two]
    have h2 : (S_.rowMajor i).val < S_.numel := (S_.rowMajor i).isLt
    have h1 : S_.numel = 1 := Shape.numel_eq_one (fun a => a.elim0)
    show 0 * 1 + 0 = _
    omega
  · exact extractStridedSlice_apply ![0, 0] x slices_S1x128_S1x1_0_0 (ix2 0 0) (ix2 0 0)
      (fun a => by match a with | ⟨0, _⟩ => rfl | ⟨1, _⟩ => rfl)

/-! ## The arguments reach every call as launched -/

/-- No call and no host operation before the second call writes the second argument. -/
private theorem W2_arg1 (c : Dev nD) : W2 m c main_arg1 = m ((c : Thread nD τ).loc main_arg1) :=
  (congrFun (V2_eq m c).symm _).trans <| (V2_of m (outs m) c main_arg1 (by decide)).trans <|
    (V1_of m (outs m) c main_arg1 (by decide)).trans rfl

/-- Nothing before the third call writes the first argument. -/
private theorem W4_arg0 (c : Dev nD) : W4 m c main_arg0 = m ((c : Thread nD τ).loc main_arg0) :=
  (congrFun (V4_eq m c).symm _).trans <| (V4_of m (outs m) c main_arg0 (by decide)).trans <|
    (V3_of m (outs m) c main_arg0 (by decide)).trans <| (V2_of m (outs m) c main_arg0 (by decide)).trans <|
    (V1_of m (outs m) c main_arg0 (by decide)).trans rfl

/-- Nothing before the third call writes the second argument. -/
private theorem W4_arg1 (c : Dev nD) : W4 m c main_arg1 = m ((c : Thread nD τ).loc main_arg1) :=
  (congrFun (V4_eq m c).symm _).trans <| (V4_of m (outs m) c main_arg1 (by decide)).trans <|
    (V3_of m (outs m) c main_arg1 (by decide)).trans <| (V2_of m (outs m) c main_arg1 (by decide)).trans <|
    (V1_of m (outs m) c main_arg1 (by decide)).trans rfl

/-! ## Each call's first output entry is the total over all pairs -/

/-- The first call: the first sample with itself. -/
private theorem s0_eq (c : Dev nD) :
    o0 m c (ix2 0 0)
      = Cert.Spec.total (m ((c : Thread nD τ).loc main_arg0)) (m ((c : Thread nD τ).loc main_arg0)) := by
  unfold o0
  exact (out_entry0 (T0 m) fullShare.left fullShare.right c).trans (Cert.Spec.run_total _ _)

/-- The second call: the second sample with itself. -/
private theorem s1_eq (c : Dev nD) :
    o1 m c (ix2 0 0)
      = Cert.Spec.total (m ((c : Thread nD τ).loc main_arg1)) (m ((c : Thread nD τ).loc main_arg1)) := by
  unfold o1
  refine (out_entry1 (T2 m) fullShare.left fullShare.right c).trans ((Cert.Spec.run_total _ _).trans ?_)
  show Cert.Spec.total (W2 m c main_arg1) (W2 m c main_arg1) = _
  rw [W2_arg1]

/-- The third call: the first sample with the second. -/
private theorem s2_eq (c : Dev nD) :
    o2 m c (ix2 0 0)
      = Cert.Spec.total (m ((c : Thread nD τ).loc main_arg0)) (m ((c : Thread nD τ).loc main_arg1)) := by
  unfold o2
  refine (out_entry2 (T4 m) fullShare fullShare c).trans ((Cert.Spec.run_total _ _).trans ?_)
  show Cert.Spec.total (W4 m c main_arg0) (W4 m c main_arg1) = _
  rw [W4_arg0, W4_arg1]

/-! ## What each call's output array holds, and the scalars sliced out of the first two -/

private theorem V1_v0 (c : Dev nD) : V1 m (outs m) c main_v0 = o0 m c :=
  (congrFun (V1_eq m c) _).trans (by unfold W1; rw [Function.update_self])

private theorem V3_v3 (c : Dev nD) : V3 m (outs m) c main_v3 = o1 m c :=
  (congrFun (V3_eq m c) _).trans (by unfold W3; rw [Function.update_self])

private theorem V5_v6 (c : Dev nD) : V5 m (outs m) c main_v6 = o2 m c :=
  (congrFun (V5_eq m c) _).trans (by unfold W5; rw [Function.update_self])

/-- After the first host stretch the first scalar is the first entry of the first call's output. -/
private theorem v2_eq (c : Dev nD) : V2 m (outs m) c main_v2 = fun _ => o0 m c (ix2 0 0) := by
  show StableHlo.after hostOps1 (V1 m (outs m) c) (Proc.devRef .tc main_v2) = _
  after_results
  funext i
  refine (pick_apply _ i).trans ?_
  rw [V1_v0]

/-- After the second host stretch the second scalar is the first entry of the second call's output. -/
private theorem v5_eq (c : Dev nD) : V4 m (outs m) c main_v5 = fun _ => o1 m c (ix2 0 0) := by
  show StableHlo.after hostOps2 (V3 m (outs m) c) (Proc.devRef .tc main_v5) = _
  after_results
  funext i
  refine (pick_apply _ i).trans ?_
  rw [V3_v3]

/-! ## The last stretch: three means combined -/

/-- Three scalars, each divided by the number of pairs; the first two added, twice the third taken away. -/
private theorem combine (a b d : (⟨S_, .f32⟩ : BufTy).Contents (Elt Ideal)) (i : S_.Idx) (sa sb sd : EReal)
    (ha : a i = sa) (hb : b i = sb) (hd : d i = sd) :
    subf (addf (Host.divf a (constant (F := Ideal) S_ .f32 0x4C800000#32))
          (Host.divf b (constant (F := Ideal) S_ .f32 0x4C800000#32)))
        (mulf (constant (F := Ideal) S_ .f32 0x40000000#32)
          (Host.divf d (constant (F := Ideal) S_ .f32 0x4C800000#32))) i
      = (Ideal.div sa Cert.Spec.wN + Ideal.div sb Cert.Spec.wN) - Cert.Spec.w2 * Ideal.div sd Cert.Spec.wN := by
  subst ha hb hd
  rfl

/-- THE RESULT: at the return the result buffer holds the distance estimate of the two arguments. -/
theorem result_eq (c : Dev nD) :
    V6 m (outs m) c main_v14
      = fun _ => Cert.Spec.mmd (m ((c : Thread nD τ).loc main_arg0)) (m ((c : Thread nD τ).loc main_arg1)) := by
  show StableHlo.after hostOps3 (V5 m (outs m) c) (Proc.devRef .tc main_v14) = _
  after_results
  -- the first two scalars were written by the earlier stretches and nothing since has written them
  have e2 : V5 m (outs m) c main_v2 = fun _ => o0 m c (ix2 0 0) :=
    (V5_of m (outs m) c main_v2 (by decide)).trans <| (V4_of m (outs m) c main_v2 (by decide)).trans <|
      (V3_of m (outs m) c main_v2 (by decide)).trans (v2_eq m c)
  have e5 : V5 m (outs m) c main_v5 = fun _ => o1 m c (ix2 0 0) :=
    (V5_of m (outs m) c main_v5 (by decide)).trans (v5_eq m c)
  rw [e2, e5, V5_v6]
  funext i
  exact combine _ _ _ i _ _ _ (s0_eq m c) (s1_eq m c) ((pick_apply _ i).trans (s2_eq m c))

end Cert.KernelIdeal.Hand

end
-- ==== Proof.RefValue.lean ====
/-
  The reference's result, read one operation at a time, is the distance estimate of the specification.

  For each of the three pairs of samples (first with first, second with second, first with second) the reference
  forms the table of kernel values over all pairs of points and takes its mean. An entry of the table is
  exp (-(1/2) · max (|u|² + |v|² - 2 ⟨u, v⟩) 0): the two squared lengths are row sums of squares, spread along the
  rows and (after a transposition) along the columns of the table, and the inner product is the contraction of the
  first sample with the transposed second one. Three facts, each proved once below, carry all three pairs: a row
  sum of squares is the squared length of that point; an entry built from the two squared lengths and the
  contraction is the kernel of the two points; the sum of such a table divided by the number of pairs is the mean
  of the specification. What remains for each pair is to follow the index maps of the spreading and transposing
  operations down to the row and the column of the entry.
-/
import proofs.«179489_j87875030876301_1_alg».proof.Proof.Spec
import proofs.«179489_j87875030876301_1_alg».proof.Proof.Gen.ReferenceIdeal.Read

noncomputable section

open scoped BigOperators

namespace Cert.RefValue

open Idealize.ShloMosaic Idealize.ShloMosaic.ValueIdx Cert.ReferenceIdeal Cert.ReferenceIdeal.Read

/-! ## The three facts, once -/

/-- Zero plus the sum of the squares read along row `R` is the squared length of point `R`. -/
private theorem sq_of (a : Cert.Spec.Arr) (R : Fin 8192) (idx : Fin 512 → S8192x512.Idx)
    (h : ∀ k, idx k = ix2 R k) :
    Ideal.ofBits .f32 0x00000000#32 + ∑ k : Fin 512, a (idx k) * a (idx k)
      = Cert.Spec.sqRow (Cert.Spec.row a R) := by
  rw [Ideal.ofBits_zero_f32, zero_add]
  unfold Cert.Spec.sqRow Cert.Spec.row
  exact Finset.sum_congr rfl fun k _ => by rw [h k]

/-- The two squared lengths, less twice the sum of products read along row `R` of `a` and row `C` of `b`, clamped
    at zero, halved, negated and exponentiated, is the kernel of point `R` of `a` and point `C` of `b`. -/
private theorem gk_of (a b : Cert.Spec.Arr) (R C : Fin 8192) (li ri : Fin 512 → S8192x512.Idx)
    (hl : ∀ k, li k = ix2 R k) (hr : ∀ k, ri k = ix2 C k) :
    Ideal.exp (Ideal.ofBits .f32 0xBF000000#32 *
        max ((Cert.Spec.sqRow (Cert.Spec.row a R) + Cert.Spec.sqRow (Cert.Spec.row b C))
          - Ideal.ofBits .f32 0x40000000#32 * ∑ k : Fin 512, a (li k) * b (ri k)) 0)
      = Cert.Spec.gk a b R C := by
  have e : ∑ k : Fin 512, a (li k) * b (ri k)
      = Cert.Spec.ipRow (Cert.Spec.row a R) (Cert.Spec.row b C) := by
    unfold Cert.Spec.ipRow Cert.Spec.row
    exact Finset.sum_congr rfl fun k _ => by rw [hl k, hr k]
  rw [e]
  rfl

/-- Zero plus the sum of a table whose entry at row `R`, column `C` is the kernel of point `R` of `a` and point
    `C` of `b`, divided by the number of pairs, is the mean of the specification. -/
private theorem mean_of (a b : Cert.Spec.Arr) (g : S8192x8192.Idx → EReal)
    (hg : ∀ R C : Fin 8192, g (ix2 R C) = Cert.Spec.gk a b R C) :
    Ideal.div (Ideal.ofBits .f32 0x00000000#32 + ∑ j : S8192x8192.Idx, g j) (Ideal.ofBits .f32 0x4C800000#32)
      = Ideal.div (Cert.Spec.total a b) Cert.Spec.wN := by
  rw [Ideal.ofBits_zero_f32, zero_add]
  have e : ∑ j : S8192x8192.Idx, g j = Cert.Spec.total a b :=
    Finset.sum_congr rfl fun j _ => (congrArg g (eq_ix2 j)).trans (hg (j 0) (j 1))
  rw [e]
  rfl

/-! ## The first sample with itself -/

/-- The row sums spread along the rows of the table. -/
private theorem sq_v1 (a : (⟨S8192x512, .f32⟩ : BufTy).Contents (Elt Ideal)) (R : Fin 8192) :
    val_main_v1 (F := Ideal) a (ix1 R) = Cert.Spec.sqRow (Cert.Spec.row a R) := by
  rw [val_main_v1_apply, val_main_cst_apply]
  simp only [val_main_v0_apply, Ideal.mulf_def, Ideal.ofBits_def]
  exact sq_of a R (idx_main_v1 (ix1 R)) fun k =>
    funext fun d => Fin.ext (by match d with | ⟨0, _⟩ => rfl | ⟨1, _⟩ => rfl)

/-- The row sums spread along the columns of the table. -/
private theorem sq_v4 (a : (⟨S8192x512, .f32⟩ : BufTy).Contents (Elt Ideal)) (R : Fin 8192) :
    val_main_v4 (F := Ideal) a (ix1 R) = Cert.Spec.sqRow (Cert.Spec.row a R) := by
  rw [val_main_v4_apply, val_main_cst_0_apply]
  simp only [val_main_v3_apply, Ideal.mulf_def, Ideal.ofBits_def]
  exact sq_of a R (idx_main_v4 (ix1 R)) fun k =>
    funext fun d => Fin.ext (by match d with | ⟨0, _⟩ => rfl | ⟨1, _⟩ => rfl)

/-- An entry of the table of the first sample with itself. -/
private theorem entry_xx (a : (⟨S8192x512, .f32⟩ : BufTy).Contents (Elt Ideal)) (R C : Fin 8192) :
    val_main_v19 (F := Ideal) a (ix2 R C) = Cert.Spec.gk a a R C := by
  simp only [val_main_v19_apply, val_main_v18_apply, val_main_v17_apply, val_main_cst_3_apply,
    val_main_v16_apply, val_main_v15_apply, val_main_cst_2_apply, val_main_v14_apply, val_main_v9_apply,
    val_main_v7_apply, val_main_v2_apply, val_main_v8_apply, val_main_v6_apply, val_main_v5_apply,
    val_main_v13_apply, val_main_v12_apply, val_main_cst_1_apply, val_main_v11_apply, val_main_v10_apply,
    Ideal.hostUnary_exp_def, Ideal.mulf_def, Ideal.maximumf_def, Ideal.subf_def, Ideal.addf_def,
    Ideal.ofBits_def, Ideal.ofBits_zero_f32]
  have e1 : idx_main_v2 (idx_main_v7 (ix2 R C)) = ix1 R :=
    funext fun d => Fin.ext (by match d with | ⟨0, _⟩ => rfl)
  have e2 : idx_main_v5 (idx_main_v6 (idx_main_v8 (ix2 R C))) = ix1 C :=
    funext fun d => Fin.ext (by match d with | ⟨0, _⟩ => rfl)
  rw [e1, e2, sq_v1, sq_v4]
  exact gk_of a a R C (fun k => lidx_main_v11 (ix2 R C) k) (fun k => idx_main_v10 (ridx_main_v11 (ix2 R C) k))
    (fun k => funext fun d => Fin.ext (by match d with | ⟨0, _⟩ => rfl | ⟨1, _⟩ => rfl))
    (fun k => funext fun d => Fin.ext (by match d with | ⟨0, _⟩ => rfl | ⟨1, _⟩ => rfl))

/-- The mean of the table of the first sample with itself. -/
private theorem mean_xx (a : (⟨S8192x512, .f32⟩ : BufTy).Contents (Elt Ideal)) (i : S_.Idx) :
    val_main_v21 (F := Ideal) a i = Ideal.div (Cert.Spec.total a a) Cert.Spec.wN := by
  rw [val_main_v21_apply, val_main_cst_5_apply, val_main_v20_apply, val_main_cst_4_apply]
  simp only [Ideal.hostDivf_def, Ideal.ofBits_def]
  exact mean_of a a (val_main_v19 (F := Ideal) a) (entry_xx a)

/-! ## The second sample with itself -/

/-- The row sums spread along the rows of the table. -/
private theorem sq_v23 (a : (⟨S8192x512, .f32⟩ : BufTy).Contents (Elt Ideal)) (R : Fin 8192) :
    val_main_v23 (F := Ideal) a (ix1 R) = Cert.Spec.sqRow (Cert.Spec.row a R) := by
  rw [val_main_v23_apply, val_main_cst_6_apply]
  simp only [val_main_v22_apply, Ideal.mulf_def, Ideal.ofBits_def]
  exact sq_of a R (idx_main_v23 (ix1 R)) fun k =>
    funext fun d => Fin.ext (by match d with | ⟨0, _⟩ => rfl | ⟨1, _⟩ => rfl)

/-- The row sums spread along the columns of the table. -/
private theorem sq_v26 (a : (⟨S8192x512, .f32⟩ : BufTy).Contents (Elt Ideal)) (R : Fin 8192) :
    val_main_v26 (F := Ideal) a (ix1 R) = Cert.Spec.sqRow (Cert.Spec.row a R) := by
  rw [val_main_v26_apply, val_main_cst_7_apply]
  simp only [val_main_v25_apply, Ideal.mulf_def, Ideal.ofBits_def]
  exact sq_of a R (idx_main_v26 (ix1 R)) fun k =>
    funext fun d => Fin.ext (by match d with | ⟨0, _⟩ => rfl | ⟨1, _⟩ => rfl)

/-- An entry of the table of the second sample with itself. -/
private theorem entry_yy (a : (⟨S8192x512, .f32⟩ : BufTy).Contents (Elt Ideal)) (R C : Fin 8192) :
    val_main_v41 (F := Ideal) a (ix2 R C) = Cert.Spec.gk a a R C := by
  simp only [val_main_v41_apply, val_main_v40_apply, val_main_v39_apply, val_main_cst_10_apply,
    val_main_v38_apply, val_main_v37_apply, val_main_cst_9_apply, val_main_v36_apply, val_main_v31_apply,
    val_main_v29_apply, val_main_v24_apply, val_main_v30_apply, val_main_v28_apply, val_main_v27_apply,
    val_main_v35_apply, val_main_v34_apply, val_main_cst_8_apply, val_main_v33_apply, val_main_v32_apply,
    Ideal.hostUnary_exp_def, Ideal.mulf_def, Ideal.maximumf_def, Ideal.subf_def, Ideal.addf_def,
    Ideal.ofBits_def, Ideal.ofBits_zero_f32]
  have e1 : idx_main_v24 (idx_main_v29 (ix2 R C)) = ix1 R :=
    funext fun d => Fin.ext (by match d with | ⟨0, _⟩ => rfl)
  have e2 : idx_main_v27 (idx_main_v28 (idx_main_v30 (ix2 R C))) = ix1 C :=
    funext fun d => Fin.ext (by match d with | ⟨0, _⟩ => rfl)
  rw [e1, e2, sq_v23, sq_v26]
  exact gk_of a a R C (fun k => lidx_main_v33 (ix2 R C) k) (fun k => idx_main_v32 (ridx_main_v33 (ix2 R C) k))
    (fun k => funext fun d => Fin.ext (by match d with | ⟨0, _⟩ => rfl | ⟨1, _⟩ => rfl))
    (fun k => funext fun d => Fin.ext (by match d with | ⟨0, _⟩ => rfl | ⟨1, _⟩ => rfl))

/-- The mean of the table of the second sample with itself. -/
private theorem mean_yy (a : (⟨S8192x512, .f32⟩ : BufTy).Contents (Elt Ideal)) (i : S_.Idx) :
    val_main_v43 (F := Ideal) a i = Ideal.div (Cert.Spec.total a a) Cert.Spec.wN := by
  rw [val_main_v43_apply, val_main_cst_12_apply, val_main_v42_apply, val_main_cst_11_apply]
  simp only [Ideal.hostDivf_def, Ideal.ofBits_def]
  exact mean_of a a (val_main_v41 (F := Ideal) a) (entry_yy a)

/-! ## The first sample with the second -/

/-- The first sample's row sums, spread along the rows of the table. -/
private theorem sq_v46 (a : (⟨S8192x512, .f32⟩ : BufTy).Contents (Elt Ideal)) (R : Fin 8192) :
    val_main_v46 (F := Ideal) a (ix1 R) = Cert.Spec.sqRow (Cert.Spec.row a R) := by
  rw [val_main_v46_apply, val_main_cst_13_apply]
  simp only [val_main_v45_apply, Ideal.mulf_def, Ideal.ofBits_def]
  exact sq_of a R (idx_main_v46 (ix1 R)) fun k =>
    funext fun d => Fin.ext (by match d with | ⟨0, _⟩ => rfl | ⟨1, _⟩ => rfl)

/-- The second sample's row sums, spread along the columns of the table. -/
private theorem sq_v49 (b : (⟨S8192x512, .f32⟩ : BufTy).Contents (Elt Ideal)) (C : Fin 8192) :
    val_main_v49 (F := Ideal) b (ix1 C) = Cert.Spec.sqRow (Cert.Spec.row b C) := by
  rw [val_main_v49_apply, val_main_cst_14_apply]
  simp only [val_main_v48_apply, Ideal.mulf_def, Ideal.ofBits_def]
  exact sq_of b C (idx_main_v49 (ix1 C)) fun k =>
    funext fun d => Fin.ext (by match d with | ⟨0, _⟩ => rfl | ⟨1, _⟩ => rfl)

/-- An entry of the table of the first sample with the second. -/
private theorem entry_xy (a b : (⟨S8192x512, .f32⟩ : BufTy).Contents (Elt Ideal)) (R C : Fin 8192) :
    val_main_v64 (F := Ideal) a b (ix2 R C) = Cert.Spec.gk a b R C := by
  simp only [val_main_v64_apply, val_main_v63_apply, val_main_v62_apply, val_main_cst_17_apply,
    val_main_v61_apply, val_main_v60_apply, val_main_cst_16_apply, val_main_v59_apply, val_main_v54_apply,
    val_main_v52_apply, val_main_v47_apply, val_main_v53_apply, val_main_v51_apply, val_main_v50_apply,
    val_main_v58_apply, val_main_v57_apply, val_main_cst_15_apply, val_main_v56_apply, val_main_v55_apply,
    Ideal.hostUnary_exp_def, Ideal.mulf_def, Ideal.maximumf_def, Ideal.subf_def, Ideal.addf_def,
    Ideal.ofBits_def, Ideal.ofBits_zero_f32]
  have e1 : idx_main_v47 (idx_main_v52 (ix2 R C)) = ix1 R :=
    funext fun d => Fin.ext (by match d with | ⟨0, _⟩ => rfl)
  have e2 : idx_main_v50 (idx_main_v51 (idx_main_v53 (ix2 R C))) = ix1 C :=
    funext fun d => Fin.ext (by match d with | ⟨0, _⟩ => rfl)
  rw [e1, e2, sq_v46, sq_v49]
  exact gk_of a b R C (fun k => lidx_main_v56 (ix2 R C) k) (fun k => idx_main_v55 (ridx_main_v56 (ix2 R C) k))
    (fun k => funext fun d => Fin.ext (by match d with | ⟨0, _⟩ => rfl | ⟨1, _⟩ => rfl))
    (fun k => funext fun d => Fin.ext (by match d with | ⟨0, _⟩ => rfl | ⟨1, _⟩ => rfl))

/-- The mean of the table of the first sample with the second. -/
private theorem mean_xy (a b : (⟨S8192x512, .f32⟩ : BufTy).Contents (Elt Ideal)) (i : S_.Idx) :
    val_main_v66 (F := Ideal) a b i = Ideal.div (Cert.Spec.total a b) Cert.Spec.wN := by
  rw [val_main_v66_apply, val_main_cst_19_apply, val_main_v65_apply, val_main_cst_18_apply]
  simp only [Ideal.hostDivf_def, Ideal.ofBits_def]
  exact mean_of a b (val_main_v64 (F := Ideal) a b) (entry_xy a b)

/-! ## The three means combined -/

/-- The reference's result is the distance estimate of its two arguments. -/
theorem ref_eq (x y : (⟨S8192x512, .f32⟩ : BufTy).Contents (Elt Ideal)) :
    val_main_v68 (F := Ideal) x y = fun _ => Cert.Spec.mmd x y := by
  funext i
  rw [val_main_v68_apply, val_main_v44_apply, val_main_v67_apply, val_main_cst_20_apply,
    mean_xx, mean_yy, mean_xy]
  rfl

end Cert.RefValue

end
-- ==== Proof.lean ====
/-
  The certificate of the Gaussian-kernel distance estimate of two samples x, y of 8192 points in 512 dimensions:

      mmd x y = S(x, x) / N + S(y, y) / N - 2 · (S(x, y) / N),   S(a, b) = ∑ over pairs (R, C) of exp (-(1/2) · max (|a_R|² + |b_C|² - 2 ⟨a_R, b_C⟩) 0),

  N = 2^26. The kernel computes each S(a, b) by one call that walks the 16 × 16 tiles of 512 × 512 pairs and adds each
  tile's sum into a 1 × 128 accumulator block (zeroed at the first grid point, written back after the last); the
  reference forms the 8192 × 8192 matrix and sums it whole. Over the extended reals the two are one number: a finite
  sum may be grouped by tiles (only commutativity and associativity of + are used, so the inputs' finiteness is never
  opened), a lane sum and a host reduce of the same elements agree, and the matrix unit's contraction onto a zero
  accumulator is the host's dot product. The frames: each call's body is run once per control case, the proof data
  name what each point leaves in the accumulator, and the three calls are segments of @main between valuations of the
  unscoped buffers; the two input windows of a call on ONE array (x, x and y, y) hold its two half shares.
-/
import proofs.«179489_j87875030876301_1_alg».proof.Defs
import proofs.«179489_j87875030876301_1_alg».proof.Proof.Gen.Kernel
import proofs.«179489_j87875030876301_1_alg».proof.Proof.Gen.KernelIdeal
import proofs.«179489_j87875030876301_1_alg».proof.Proof.Gen.ReferenceIdeal
import proofs.«179489_j87875030876301_1_alg».proof.Proof.Gen.Pre_finite_inputs
import proofs.«179489_j87875030876301_1_alg».proof.Proof.Gen.ReferenceIdeal.Run
import proofs.«179489_j87875030876301_1_alg».proof.Proof.Gen.ReferenceIdeal.Read
import proofs.«179489_j87875030876301_1_alg».proof.Proof.K.Run
import proofs.«179489_j87875030876301_1_alg».proof.Proof.KI.Run
import proofs.«179489_j87875030876301_1_alg».proof.Proof.KI.ValueRun
import proofs.«179489_j87875030876301_1_alg».proof.Proof.KI.Value
import proofs.«179489_j87875030876301_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the distance estimate of their (agreeing) arguments in the result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Hand.result_eq m c), (h c).2.1, (h c).2.2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, Cert.RefValue.ref_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
